-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16x4096x512 .f32) (main_arg1 : FVec F S1536x512 .f32) (main_arg2 : FVec F S512x512 .f32) (main_arg3 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16x4096x512 : Shape := ⟨3, ![16, 4096, 512]⟩
abbrev S1536x512 : Shape := ⟨2, ![1536, 512]⟩
abbrev S512x512 : Shape := ⟨2, ![512, 512]⟩
abbrev S512 : Shape := ⟨1, ![512]⟩
abbrev S1024x64x512 : Shape := ⟨3, ![1024, 64, 512]⟩
abbrev S1x512 : Shape := ⟨2, ![1, 512]⟩
abbrev S16x64x512 : Shape := ⟨3, ![16, 64, 512]⟩
abbrev S1024x512 : Shape := ⟨2, ![1024, 512]⟩
abbrev S512x1536 : Shape := ⟨2, ![512, 1536]⟩
abbrev S1024x1536 : Shape := ⟨2, ![1024, 1536]⟩
abbrev S1024x64 : Shape := ⟨2, ![1024, 64]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 8
  | .vmem => 8
  | .smem => 0
  | _ => 0

abbrev bufTy : (tb : Table) → Fin (tcTables nBuf tb) → BufTy
  | .hbm, ⟨0, _⟩ => ⟨S16x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1024x64x512, .f32⟩
  | .hbm, ⟨5, _⟩ => ⟨S1x512, .f32⟩
  | .hbm, ⟨6, _⟩ => ⟨S1024x64x512, .f32⟩
  | .hbm, ⟨7, _⟩ => ⟨S16x4096x512, .f32⟩
  | .local _ .vmem, ⟨0, _⟩ => ⟨S16x64x512, .f32⟩
  | .local _ .vmem, ⟨1, _⟩ => ⟨S16x64x512, .f32⟩
  | .local _ .vmem, ⟨2, _⟩ => ⟨S1536x512, .f32⟩
  | .local _ .vmem, ⟨3, _⟩ => ⟨S512x512, .f32⟩
  | .local _ .vmem, ⟨4, _⟩ => ⟨S1x512, .f32⟩
  | .local _ .vmem, ⟨5, _⟩ => ⟨S16x64x512, .f32⟩
  | .local _ .vmem, ⟨6, _⟩ => ⟨S16x64x512, .f32⟩
  | .local _ .vmem, ⟨7, _⟩ => ⟨S16x64x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x512_S1024x64x512 : S16x4096x512.ShapeCasts S1024x64x512
  shapeCasts_S512_S1x512 : S512.ShapeCasts S1x512
  inb_S16x64x512_S16x64x512_0_0_0 : ∀ a, (![0, 0, 0] : Fin 3 → Nat) a + S16x64x512.size a ≤ S16x64x512.size a
  h_S16x64x512 : 0 < S16x64x512.numel
  shapeCasts_S16x64x512_S16x64x512 : S16x64x512.ShapeCasts S16x64x512
  shapeCasts_S16x64x512_S1024x512 : S16x64x512.ShapeCasts S1024x512
  bitsLt_bf16_f32 : FTy.bits .bf16 < FTy.bits .f32
  inb_S1536x512_S1536x512_0_0 : ∀ a, (![0, 0] : Fin 2 → Nat) a + S1536x512.size a ≤ S1536x512.size a
  h_S1536x512 : 0 < S1536x512.numel
  transposes_S1536x512_p1_0_S512x1536 : S1536x512.Transposes [1, 0] S512x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1024x512_o0_0_S1024x64 : S1024x512.Slices ![0, 0] S1024x64
  shapeCasts_S1024x64_S16x64x64 : S1024x64.ShapeCasts S16x64x64
  reduces_S16x64x64_S16x64 : S16x64x64.Reduces [2] S16x64
  shapeCasts_S16x64_S16x64x1 : S16x64.ShapeCasts S16x64x1
  broadcasts_S16x64x1_S16x64x64 : S16x64x1.Broadcasts S16x64x64
  inb_S16x64x512_S16x64x64_0_0_0 : ∀ a, (![0, 0, 0] : Fin 3 → Nat) a + S16x64x64.size a ≤ S16x64x512.size a
  h_S16x64x64 : 0 < S16x64x64.numel
  shapeCasts_S16x64x64_S16x64x64 : S16x64x64.ShapeCasts S16x64x64
  slices_S1024x512_o0_64_S1024x64 : S1024x512.Slices ![0, 64] S1024x64
  inb_S16x64x512_S16x64x64_0_0_64 : ∀ a, (![0, 0, 64] : Fin 3 → Nat) a + S16x64x64.size a ≤ S16x64x512.size a
  slices_S1024x512_o0_128_S1024x64 : S1024x512.Slices ![0, 128] S1024x64
  inb_S16x64x512_S16x64x64_0_0_128 : ∀ a, (![0, 0, 128] : Fin 3 → Nat) a + S16x64x64.size a ≤ S16x64x512.size a
  slices_S1024x512_o0_192_S1024x64 : S1024x512.Slices ![0, 192] S1024x64
  inb_S16x64x512_S16x64x64_0_0_192 : ∀ a, (![0, 0, 192] : Fin 3 → Nat) a + S16x64x64.size a ≤ S16x64x512.size a
  slices_S1024x512_o0_256_S1024x64 : S1024x512.Slices ![0, 256] S1024x64
  inb_S16x64x512_S16x64x64_0_0_256 : ∀ a, (![0, 0, 256] : Fin 3 → Nat) a + S16x64x64.size a ≤ S16x64x512.size a
  slices_S1024x512_o0_320_S1024x64 : S1024x512.Slices ![0, 320] S1024x64
  inb_S16x64x512_S16x64x64_0_0_320 : ∀ a, (![0, 0, 320] : Fin 3 → Nat) a + S16x64x64.size a ≤ S16x64x512.size a
  slices_S1024x512_o0_384_S1024x64 : S1024x512.Slices ![0, 384] S1024x64
  inb_S16x64x512_S16x64x64_0_0_384 : ∀ a, (![0, 0, 384] : Fin 3 → Nat) a + S16x64x64.size a ≤ S16x64x512.size a
  slices_S1024x512_o0_448_S1024x64 : S1024x512.Slices ![0, 448] S1024x64
  inb_S16x64x512_S16x64x64_0_0_448 : ∀ a, (![0, 0, 448] : Fin 3 → Nat) a + S16x64x64.size a ≤ S16x64x512.size a
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S16x64x512 : S1024x512.ShapeCasts S16x64x512
  shapeCasts_S1024x64x512_S16x4096x512 : S1024x64x512.ShapeCasts S16x4096x512
  dot_S1024x512_S512x1536_S1024x1536_1_0_0_1_n_n_wf : DotDims.WF S1024x512 S512x1536 S1024x1536 [1] [0] [0] [1] [] []
  dot_S16x64x64_S16x64x64_S16x64x64_2_2_1_1_0_0_wf : DotDims.WF S16x64x64 S16x64x64 S16x64x64 [2] [2] [1] [1] [0] [0]
  dot_S16x64x64_S16x64x64_S16x64x64_2_1_1_2_0_0_wf : DotDims.WF S16x64x64 S16x64x64 S16x64x64 [2] [1] [1] [2] [0] [0]
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x512.size a ≤ S1024x64x512.size a
  hwx0_0 : ∀ i : grid0.Coords, EltTy.bits .f32 = 32 ∨ (Rect.block (s := S1024x64x512) S16x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x512.size a ≤ S1024x64x512.size a
  hwx0_4 : ∀ i : grid0.Coords, EltTy.bits .f32 = 32 ∨ (Rect.block (s := S1024x64x512) S16x64x512.size (cc0_transform_4 i) (hinb0_4 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S16x64x64_S16x64x64_S16x64x64_2_2_1_1_0_0 : DotDims S16x64x64 S16x64x64 S16x64x64 where
  lhsContracting := [2]
  rhsContracting := [2]
  lhsNonContracting := [1]
  rhsNonContracting := [1]
  lhsBatch := [0]
  rhsBatch := [0]
  wf := dot_S16x64x64_S16x64x64_S16x64x64_2_2_1_1_0_0_wf
def dot_S16x64x64_S16x64x64_S16x64x64_2_1_1_2_0_0 : DotDims S16x64x64 S16x64x64 S16x64x64 where
  lhsContracting := [2]
  rhsContracting := [1]
  lhsNonContracting := [1]
  rhsNonContracting := [2]
  lhsBatch := [0]
  rhsBatch := [0]
  wf := dot_S16x64x64_S16x64x64_S16x64x64_2_1_1_2_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S1536x512 : Shape := ⟨2, ![1536, 512]⟩
abbrev S512x512 : Shape := ⟨2, ![512, 512]⟩
abbrev S512 : Shape := ⟨1, ![512]⟩
abbrev S1024x64x512 : Shape := ⟨3, ![1024, 64, 512]⟩
abbrev S1024x64x1536 : Shape := ⟨3, ![1024, 64, 1536]⟩
abbrev S1024x64x3x8x64 : Shape := ⟨5, ![1024, 64, 3, 8, 64]⟩
abbrev S3x1024x8x64x64 : Shape := ⟨5, ![3, 1024, 8, 64, 64]⟩
abbrev S1x1024x8x64x64 : Shape := ⟨5, ![1, 1024, 8, 64, 64]⟩
abbrev S1024x8x64x64 : Shape := ⟨4, ![1024, 8, 64, 64]⟩
abbrev S_ : Shape := ⟨0, ![]⟩
abbrev S1024x8x64 : Shape := ⟨3, ![1024, 8, 64]⟩
abbrev S1024x8x64x1 : Shape := ⟨4, ![1024, 8, 64, 1]⟩
abbrev S1024x64x8x64 : Shape := ⟨4, ![1024, 64, 8, 64]⟩
abbrev S1x1x512 : Shape := ⟨3, ![1, 1, 512]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1024x64x512, .f32⟩
  | .hbm, ⟨5, _⟩ => ⟨S1024x64x1536, .f32⟩
  | .hbm, ⟨6, _⟩ => ⟨S1024x64x3x8x64, .f32⟩
  | .hbm, ⟨7, _⟩ => ⟨S3x1024x8x64x64, .f32⟩
  | .hbm, ⟨8, _⟩ => ⟨S1x1024x8x64x64, .f32⟩
  | .hbm, ⟨9, _⟩ => ⟨S1024x8x64x64, .f32⟩
  | .hbm, ⟨10, _⟩ => ⟨S1x1024x8x64x64, .f32⟩
  | .hbm, ⟨11, _⟩ => ⟨S1024x8x64x64, .f32⟩
  | .hbm, ⟨12, _⟩ => ⟨S1x1024x8x64x64, .f32⟩
  | .hbm, ⟨13, _⟩ => ⟨S1024x8x64x64, .f32⟩
  | .hbm, ⟨14, _⟩ => ⟨S1024x8x64x64, .f32⟩
  | .hbm, ⟨15, _⟩ => ⟨S_, .f32⟩
  | .hbm, ⟨16, _⟩ => ⟨S1024x8x64x64, .f32⟩
  | .hbm, ⟨17, _⟩ => ⟨S1024x8x64x64, .f32⟩
  | .hbm, ⟨18, _⟩ => ⟨S_, .f32⟩
  | .hbm, ⟨19, _⟩ => ⟨S1024x8x64, .f32⟩
  | .hbm, ⟨20, _⟩ => ⟨S_, .f32⟩
  | .hbm, ⟨21, _⟩ => ⟨S1024x8x64, .f32⟩
  | .hbm, ⟨22, _⟩ => ⟨S1024x8x64, .f32⟩
  | .hbm, ⟨23, _⟩ => ⟨S1024x8x64x1, .f32⟩
  | .hbm, ⟨24, _⟩ => ⟨S1024x8x64x64, .f32⟩
  | .hbm, ⟨25, _⟩ => ⟨S1024x8x64x64, .f32⟩
  | .hbm, ⟨26, _⟩ => ⟨S1024x8x64x64, .f32⟩
  | .hbm, ⟨27, _⟩ => ⟨S_, .f32⟩
  | .hbm, ⟨28, _⟩ => ⟨S1024x8x64, .f32⟩
  | .hbm, ⟨29, _⟩ => ⟨S1024x8x64x1, .f32⟩
  | .hbm, ⟨30, _⟩ => ⟨S1024x8x64x64, .f32⟩
  | .hbm, ⟨31, _⟩ => ⟨S1024x8x64x64, .f32⟩
  | .hbm, ⟨32, _⟩ => ⟨S1024x8x64x64, .f32⟩
  | .hbm, ⟨33, _⟩ => ⟨S1024x64x8x64, .f32⟩
  | .hbm, ⟨34, _⟩ => ⟨S16x4096x512, .f32⟩
  | .hbm, ⟨35, _⟩ => ⟨S16x4096x512, .f32⟩
  | .hbm, ⟨36, _⟩ => ⟨S1x1x512, .f32⟩
  | .hbm, ⟨37, _⟩ => ⟨S16x4096x512, .f32⟩
  | .hbm, ⟨38, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S16x4096x512_S1024x64x512 : S16x4096x512.ShapeCasts S1024x64x512
  shapeCasts_S1024x64x1536_S1024x64x3x8x64 : S1024x64x1536.ShapeCasts S1024x64x3x8x64
  transposes_S1024x64x3x8x64_S3x1024x8x64x64_2_0_3_1_4 : S1024x64x3x8x64.Transposes [2, 0, 3, 1, 4] S3x1024x8x64x64
  slices_S3x1024x8x64x64_S1x1024x8x64x64_0_0_0_0_0 : S3x1024x8x64x64.Slices ![0, 0, 0, 0, 0] S1x1024x8x64x64
  shapeCasts_S1x1024x8x64x64_S1024x8x64x64 : S1x1024x8x64x64.ShapeCasts S1024x8x64x64
  slices_S3x1024x8x64x64_S1x1024x8x64x64_1_0_0_0_0 : S3x1024x8x64x64.Slices ![1, 0, 0, 0, 0] S1x1024x8x64x64
  slices_S3x1024x8x64x64_S1x1024x8x64x64_2_0_0_0_0 : S3x1024x8x64x64.Slices ![2, 0, 0, 0, 0] S1x1024x8x64x64
  bcast_S_S1024x8x64x64 : S_.BroadcastsInDim S1024x8x64x64 (![] : Fin 0 → Fin S1024x8x64x64.rank)
  reducesTo_S1024x8x64x64_S1024x8x64_d3 : S1024x8x64x64.ReducesTo [3] S1024x8x64
  h_S_ : 0 < S_.numel
  bcast_S_S1024x8x64 : S_.BroadcastsInDim S1024x8x64 (![] : Fin 0 → Fin S1024x8x64.rank)
  bcast_S1024x8x64_S1024x8x64x1_0_1_2 : S1024x8x64.BroadcastsInDim S1024x8x64x1 (![0, 1, 2] : Fin 3 → Fin S1024x8x64x1.rank)
  bcast_S1024x8x64x1_S1024x8x64x64_0_1_2_3 : S1024x8x64x1.BroadcastsInDim S1024x8x64x64 (![0, 1, 2, 3] : Fin 4 → Fin S1024x8x64x64.rank)
  transposes_S1024x8x64x64_S1024x64x8x64_0_2_1_3 : S1024x8x64x64.Transposes [0, 2, 1, 3] S1024x64x8x64
  shapeCasts_S1024x64x8x64_S16x4096x512 : S1024x64x8x64.ShapeCasts S16x4096x512
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S1024x64x512_S1536x512_S1024x64x1536_2_1_01_0_n_n_wf : DotDims.WF S1024x64x512 S1536x512 S1024x64x1536 [2] [1] [0, 1] [0] [] []
  dot_S1024x8x64x64_S1024x8x64x64_S1024x8x64x64_3_3_2_2_01_01_wf : DotDims.WF S1024x8x64x64 S1024x8x64x64 S1024x8x64x64 [3] [3] [2] [2] [0, 1] [0, 1]
  dot_S1024x8x64x64_S1024x8x64x64_S1024x8x64x64_3_2_2_3_01_01_wf : DotDims.WF S1024x8x64x64 S1024x8x64x64 S1024x8x64x64 [3] [2] [2] [3] [0, 1] [0, 1]
  dot_S16x4096x512_S512x512_S16x4096x512_2_1_01_0_n_n_wf : DotDims.WF S16x4096x512 S512x512 S16x4096x512 [2] [1] [0, 1] [0] [] []

variable [Facts₀]

def dot_S1024x64x512_S1536x512_S1024x64x1536_2_1_01_0_n_n : DotDims S1024x64x512 S1536x512 S1024x64x1536 where
  lhsContracting := [2]
  rhsContracting := [1]
  lhsNonContracting := [0, 1]
  rhsNonContracting := [0]
  lhsBatch := []
  rhsBatch := []
  wf := dot_S1024x64x512_S1536x512_S1024x64x1536_2_1_01_0_n_n_wf
def dot_S1024x8x64x64_S1024x8x64x64_S1024x8x64x64_3_3_2_2_01_01 : DotDims S1024x8x64x64 S1024x8x64x64 S1024x8x64x64 where
  lhsContracting := [3]
  rhsContracting := [3]
  lhsNonContracting := [2]
  rhsNonContracting := [2]
  lhsBatch := [0, 1]
  rhsBatch := [0, 1]
  wf := dot_S1024x8x64x64_S1024x8x64x64_S1024x8x64x64_3_3_2_2_01_01_wf
def dot_S1024x8x64x64_S1024x8x64x64_S1024x8x64x64_3_2_2_3_01_01 : DotDims S1024x8x64x64 S1024x8x64x64 S1024x8x64x64 where
  lhsContracting := [3]
  rhsContracting := [2]
  lhsNonContracting := [2]
  rhsNonContracting := [3]
  lhsBatch := [0, 1]
  rhsBatch := [0, 1]
  wf := dot_S1024x8x64x64_S1024x8x64x64_S1024x8x64x64_3_2_2_3_01_01_wf
def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.KHead.lean ====
/-
  One attention head of the kernel's body as ONE vector term, at any instance of the float operations.

  The body computes its eight heads with the same chain of operations, at the lane offsets 0, 64, …, 448 of the three
  projected blocks (queries, keys, values, each 1024 × 512: row `b * 64 + q` is window `b`, position `q`): slice 64
  lanes, regroup the 1024 rows as 16 windows of 64, multiply queries against keys, scale, subtract the row maximum,
  exponentiate, divide by the row sum, multiply against the values. `headVec o` is that chain at lane offset `o`; each
  of the eight values the body stores into its scratch is `headVec` at its offset, by unfolding alone.
-/
import proofs.«145423_j50182397886562_1_alg».proof.Proof.Gen.KernelIdeal.Skeleton

noncomputable section

namespace Cert.KernelIdeal.Body

open Idealize.ShloMosaic Idealize.SL.Sem
open Cert.KernelIdeal Cert.KernelIdeal.Gen

variable {F : FTy → Type} [FloatOps F]

/-- One head: the 64 lanes from `o` of the projected queries `vq`, keys `vk` and values `vv`, through scaled scores,
    the softmax over each row, and the product with the values. -/
def headVec (o : Nat) (hs : S1024x512.Slices ![0, o] S1024x64) (vq vk vv : FVec F S1024x512 .f32) : FVec F S16x64x64 .f32 :=
  have q0 : FVec F S1024x64 .f32 := extractStridedSlice S1024x64 ![0, o] vq hs
  have q1 : FVec F S16x64x64 .f32 := shapeCast S16x64x64 q0 shapeCasts_S1024x64_S16x64x64
  have q2 : FVec F S16x64x64 .bf16 := truncf .bf16 q1 bitsLt_bf16_f32
  have k0 : FVec F S1024x64 .f32 := extractStridedSlice S1024x64 ![0, o] vk hs
  have k1 : FVec F S16x64x64 .f32 := shapeCast S16x64x64 k0 shapeCasts_S1024x64_S16x64x64
  have k2 : FVec F S16x64x64 .bf16 := truncf .bf16 k1 bitsLt_bf16_f32
  have w0 : FVec F S1024x64 .f32 := extractStridedSlice S1024x64 ![0, o] vv hs
  have w1 : FVec F S16x64x64 .f32 := shapeCast S16x64x64 w0 shapeCasts_S1024x64_S16x64x64
  have w2 : FVec F S16x64x64 .bf16 := truncf .bf16 w1 bitsLt_bf16_f32
  have z : FVec F S16x64x64 .f32 := constant S16x64x64 .f32 0x00000000#32
  have s0 : FVec F S16x64x64 .f32 := matmul dot_S16x64x64_S16x64x64_S16x64x64_2_2_1_1_0_0 none q2 k2 z
  have sc : F .f32 := Scalar.ofBits .f32 0x3E000000#32
  have s1 : FVec F S16x64x64 .f32 := broadcast S16x64x64 sc
  have s : FVec F S16x64x64 .f32 := mulf s0 s1
  have m0 : FVec F S16x64 .f32 := multiReduction .maximumf [2] S16x64 s 0xFF800000#32 reduces_S16x64x64_S16x64 (.inl rfl) rfl
  have ni : F .f32 := Scalar.ofBits .f32 0xFF800000#32
  have m1 : FVec F S16x64 .f32 := broadcast S16x64 ni
  have m2 : FVec F S16x64 .f32 := maximumf m1 m0
  have m3 : FVec F S16x64x1 .f32 := shapeCast S16x64x1 m2 shapeCasts_S16x64_S16x64x1
  have m : FVec F S16x64x64 .f32 := broadcastTo S16x64x64 m3 broadcasts_S16x64x1_S16x64x64
  have d0 : FVec F S16x64x64 .f32 := subf s m
  have ex : FVec F S16x64x64 .f32 := exp d0
  have t0 : FVec F S16x64 .f32 := multiReduction .add [2] S16x64 ex 0x00000000#32 reduces_S16x64x64_S16x64 (.inl rfl) rfl
  have t1 : FVec F S16x64x1 .f32 := shapeCast S16x64x1 t0 shapeCasts_S16x64_S16x64x1
  have t : FVec F S16x64x64 .f32 := broadcastTo S16x64x64 t1 broadcasts_S16x64x1_S16x64x64
  have p0 : FVec F S16x64x64 .f32 := divf ex t
  have p : FVec F S16x64x64 .bf16 := truncf .bf16 p0 bitsLt_bf16_f32
  have z' : FVec F S16x64x64 .f32 := constant S16x64x64 .f32 0x00000000#32
  have r0 : FVec F S16x64x64 .f32 := matmul dot_S16x64x64_S16x64x64_S16x64x64_2_1_1_2_0_0 none p w2 z'
  have r : FVec F S16x64x64 .f32 := shapeCast S16x64x64 r0 shapeCasts_S16x64x64_S16x64x64
  r

variable (x0 : Vec F S16x64x512 .f32) (x1 : Vec F S1536x512 .f32)

/-- The projected queries, keys and values of the block: the three 512-lane thirds of the fused projection. -/
abbrev vQ : FVec F S1024x512 .f32 := k0_pay4 x0 x1
abbrev vK : FVec F S1024x512 .f32 := k0_pay5 x0 x1
abbrev vV : FVec F S1024x512 .f32 := k0_pay6 x0 x1

/-! Each value the body stores into its scratch is the head at its lane offset. -/

theorem head0_eq : k0_pay7 x0 x1 = headVec 0 slices_S1024x512_o0_0_S1024x64 (vQ x0 x1) (vK x0 x1) (vV x0 x1) := rfl

theorem head1_eq : k0_pay10 (k0_pay6 x0 x1) (k0_pay8 x0 x1) (k0_pay9 x0 x1)
    = headVec 64 slices_S1024x512_o0_64_S1024x64 (vQ x0 x1) (vK x0 x1) (vV x0 x1) := rfl

theorem head2_eq : k0_pay14 (k0_pay11 (k0_pay6 x0 x1)) (k0_pay12 (k0_pay4 x0 x1) (k0_pay5 x0 x1)) (k0_pay13 (k0_pay4 x0 x1) (k0_pay5 x0 x1))
    = headVec 128 slices_S1024x512_o0_128_S1024x64 (vQ x0 x1) (vK x0 x1) (vV x0 x1) := rfl

theorem head3_eq : k0_pay15 (k0_pay4 x0 x1) (k0_pay5 x0 x1) (k0_pay6 x0 x1)
    = headVec 192 slices_S1024x512_o0_192_S1024x64 (vQ x0 x1) (vK x0 x1) (vV x0 x1) := rfl

theorem head4_eq : k0_pay19 (k0_pay16 (k0_pay4 x0 x1)) (k0_pay17 (k0_pay5 x0 x1)) (k0_pay18 (k0_pay6 x0 x1)) (constant S16x64x64 .f32 0x00000000#32)
    = headVec 256 slices_S1024x512_o0_256_S1024x64 (vQ x0 x1) (vK x0 x1) (vV x0 x1) := rfl

theorem head5_eq : k0_pay21 (k0_pay20 (k0_pay4 x0 x1) (k0_pay5 x0 x1) (k0_pay6 x0 x1))
    = headVec 320 slices_S1024x512_o0_320_S1024x64 (vQ x0 x1) (vK x0 x1) (vV x0 x1) := rfl

theorem head6_eq : k0_pay22 (k0_pay4 x0 x1) (k0_pay5 x0 x1) (k0_pay6 x0 x1)
    = headVec 384 slices_S1024x512_o0_384_S1024x64 (vQ x0 x1) (vK x0 x1) (vV x0 x1) := rfl

theorem head7_eq : k0_pay1 (k0_pay23 (k0_pay6 x0 x1)) (k0_pay24 (k0_pay4 x0 x1) (k0_pay5 x0 x1)) (k0_pay25 (k0_pay4 x0 x1) (k0_pay5 x0 x1))
    = headVec 448 slices_S1024x512_o0_448_S1024x64 (vQ x0 x1) (vK x0 x1) (vV x0 x1) := rfl

end Cert.KernelIdeal.Body

end
-- ==== Proof.KBlock.lean ====
/-
  What the kernel's body leaves in its output block, as ONE term of the four input blocks, at any instance.

  The body writes head `h`'s result (16 windows × 64 positions × 64 lanes) into lanes `64 h … 64 h + 63` of a scratch
  block, eight stores in all, then loads the whole scratch, multiplies it against the transposed output weights, adds the
  bias row and stores the block. The scratch's contents at the load are the eight stores read back (`scratchPieces`, the
  last store first); `blockOut` is the stored block over them. The generated frame names the same block
  `Gen.out0_A_4`; `out_eq` identifies the two.
-/
import proofs.«145423_j50182397886562_1_alg».proof.Proof.Gen.KernelIdeal.Frame
import proofs.«145423_j50182397886562_1_alg».proof.Proof.KHead
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

theorem zeros3 : (![0, 0, 0] : Fin 3 → Nat) = fun _ => 0 := by funext a; fin_cases a <;> rfl
theorem zeros2 : (![0, 0] : Fin 2 → Nat) = fun _ => 0 := by funext a; fin_cases a <;> rfl

/-- The eight stores into the scratch, last first: head `h` at lanes `64 h` on. -/
def scratchPieces (x0 : Vec F S16x64x512 .f32) (x1 : Vec F S1536x512 .f32) : List (View.Piece (Elt F) S16x64x512 .f32) :=
  [
    ⟨Rect.unit ![0, 0, 448] ![16, 64, 64] inb_S16x64x512_S16x64x64_0_0_448, headVec 448 slices_S1024x512_o0_448_S1024x64 (vQ x0 x1) (vK x0 x1) (vV x0 x1)⟩,
    ⟨Rect.unit ![0, 0, 384] ![16, 64, 64] inb_S16x64x512_S16x64x64_0_0_384, headVec 384 slices_S1024x512_o0_384_S1024x64 (vQ x0 x1) (vK x0 x1) (vV x0 x1)⟩,
    ⟨Rect.unit ![0, 0, 320] ![16, 64, 64] inb_S16x64x512_S16x64x64_0_0_320, headVec 320 slices_S1024x512_o0_320_S1024x64 (vQ x0 x1) (vK x0 x1) (vV x0 x1)⟩,
    ⟨Rect.unit ![0, 0, 256] ![16, 64, 64] inb_S16x64x512_S16x64x64_0_0_256, headVec 256 slices_S1024x512_o0_256_S1024x64 (vQ x0 x1) (vK x0 x1) (vV x0 x1)⟩,
    ⟨Rect.unit ![0, 0, 192] ![16, 64, 64] inb_S16x64x512_S16x64x64_0_0_192, headVec 192 slices_S1024x512_o0_192_S1024x64 (vQ x0 x1) (vK x0 x1) (vV x0 x1)⟩,
    ⟨Rect.unit ![0, 0, 128] ![16, 64, 64] inb_S16x64x512_S16x64x64_0_0_128, headVec 128 slices_S1024x512_o0_128_S1024x64 (vQ x0 x1) (vK x0 x1) (vV x0 x1)⟩,
    ⟨Rect.unit ![0, 0, 64] ![16, 64, 64] inb_S16x64x512_S16x64x64_0_0_64, headVec 64 slices_S1024x512_o0_64_S1024x64 (vQ x0 x1) (vK x0 x1) (vV x0 x1)⟩,
    ⟨Rect.unit ![0, 0, 0] ![16, 64, 64] inb_S16x64x512_S16x64x64_0_0_0, headVec 0 slices_S1024x512_o0_0_S1024x64 (vQ x0 x1) (vK x0 x1) (vV x0 x1)⟩]

/-- The block the body stores: the scratch through the output projection, plus the bias. -/
def blockOut (x0 : Vec F S16x64x512 .f32) (x1 : Vec F S1536x512 .f32) (x2 : Vec F S512x512 .f32) (x3 : Vec F S1x512 .f32) :
    FVec F S16x64x512 .f32 :=
  k0_pay2 (View.canon (scratchPieces x0 x1)) x2 x3

/-- The generated frame's name for what the body leaves in the output's staging buffer is `blockOut`: its one store
    covers the block, the loads of the four inputs read them whole, and the load of the scratch reads its stores back. -/
theorem out_eq (c : Dev nD) (i : grid0.Coords) (arg1 : Memref sig .tc .vmem S16x64x512 .f32) (harg1 : arg1.IsWhole) (arg2 : Memref sig .tc .vmem S1536x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S16x64x512 .f32) (harg5 : arg5.IsWhole) (arg6 : Memref sig .tc .vmem S16x64x512 .f32) (harg6 : arg6.IsWhole)
    (x0 : Vec F S16x64x512 .f32) (x1 : Vec F S1536x512 .f32) (x2 : Vec F S512x512 .f32) (x3 : Vec F S1x512 .f32) :
    out0_A_4 c i arg1 harg1 arg2 harg2 arg3 harg3 arg4 harg4 arg5 harg5 arg6 harg6 x0 x1 x2 x3 = blockOut x0 x1 x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero zeros3]
  simp only [View.readAt_eq_ld, harg1.read_unread, harg2.read_unread, harg3.read_unread, harg4.read_unread,
    View.ld_unit_zero (S := S16x64x512) zeros3, View.ld_unit_zero (S := S1536x512) zeros2, View.ld_unit_zero (S := S512x512) zeros2,
    View.ld_unit_zero (S := S1x512) zeros2, View.readCov_eq_canon']
  rw [head7_eq x0 x1, head6_eq x0 x1, head5_eq x0 x1, head4_eq x0 x1, head3_eq x0 x1, head2_eq x0 x1, head1_eq x0 x1,
    head0_eq x0 x1]
  exact congrArg (fun s => k0_pay2 s x2 x3)
    (View.ld_unit_zero zeros3 inb_S16x64x512_S16x64x512_0_0_0 (View.canon (scratchPieces x0 x1)))

end Cert.KernelIdeal.Body

end
-- ==== Proof.Spec.lean ====
/-
  The mathematics both programs compute, one attention WINDOW at a time, on the extended reals.

  A window is 64 positions of 512 channels, `X q c`. The fused projection `proj X W q d = ∑ c, X q c * W d c` gives 1536
  columns per position: for head `h` (of 8) and lane `e` (of 64) the query is column `h*64+e`, the key column
  `512+h*64+e`, the value column `1024+h*64+e`. Per head: the scores `(q·k) * 1/8`, the row maximum taken from -∞,
  the exponentials of the scores less that maximum, their row sum, the quotient, and the weighted sum of the values.
  The eight heads' results, laid side by side (channel `c` is head `c / 64`, lane `c % 64`), go through the output
  projection `∑ c, ctx c * P d c` and the bias is added.

  Every literal stays the bit pattern the programs print (`0x3E000000` is 1/8, `0xFF800000` is -∞): both sides carry
  the same words, so none is ever evaluated.
-/
import Idealize.ShloMosaic.PureOps.Ideal
import Idealize.ShloMosaic.Lib.ValueIdx

noncomputable section

namespace Cert.Attn

open Idealize.ShloMosaic

/-- The score scale, the word both programs print for 1/8. -/
abbrev scale : EReal := Ideal.ofBits .f32 0x3E000000#32
/-- The word both programs print for -∞: the row maximum's starting value. -/
abbrev negInf : EReal := Ideal.ofBits .f32 0xFF800000#32

/-- Head `h`, lane `e`: the query's column of the fused projection. -/
def colQ (h : Fin 8) (e : Fin 64) : Fin 1536 := ⟨h.val * 64 + e.val, by have := h.isLt; have := e.isLt; omega⟩
/-- The key's column. -/
def colK (h : Fin 8) (e : Fin 64) : Fin 1536 := ⟨512 + (h.val * 64 + e.val), by have := h.isLt; have := e.isLt; omega⟩
/-- The value's column. -/
def colV (h : Fin 8) (e : Fin 64) : Fin 1536 := ⟨1024 + (h.val * 64 + e.val), by have := h.isLt; have := e.isLt; omega⟩
/-- The head a channel of the concatenated heads belongs to. -/
def hd (c : Fin 512) : Fin 8 := ⟨c.val / 64, by have := c.isLt; omega⟩
/-- Its lane inside that head. -/
def lane (c : Fin 512) : Fin 64 := ⟨c.val % 64, by omega⟩

variable (X : Fin 64 → Fin 512 → EReal) (W : Fin 1536 → Fin 512 → EReal) (P : Fin 512 → Fin 512 → EReal)
  (β : Fin 512 → EReal)

/-- The fused query/key/value projection of one window. -/
def proj (q : Fin 64) (d : Fin 1536) : EReal := ∑ c : Fin 512, X q c * W d c

/-- Head `h`'s scaled score of query position `q` against key position `k`. -/
def score (h : Fin 8) (q k : Fin 64) : EReal :=
  (∑ e : Fin 64, proj X W q (colQ h e) * proj X W k (colK h e)) * scale

/-- The row's maximum score, from -∞ (and once more against -∞, as both programs do). -/
def rowMax (h : Fin 8) (q : Fin 64) : EReal :=
  max negInf ((Finset.univ : Finset (Fin 64)).fold max negInf (fun k => score X W h q k))

/-- The exponential of a score less its row's maximum. -/
def expo (h : Fin 8) (q k : Fin 64) : EReal := Ideal.exp (score X W h q k - rowMax X W h q)

/-- The row's sum of exponentials. -/
def denom (h : Fin 8) (q : Fin 64) : EReal := ∑ k : Fin 64, expo X W h q k

/-- The attention weight. -/
def prob (h : Fin 8) (q k : Fin 64) : EReal := Ideal.div (expo X W h q k) (denom X W h q)

/-- Head `h`'s result at position `q`, lane `e`: the weights against the values. -/
def ctx (h : Fin 8) (q : Fin 64) (e : Fin 64) : EReal := ∑ k : Fin 64, prob X W h q k * proj X W k (colV h e)

/-- The window's output: the concatenated heads through the output projection, plus the bias. -/
def attnWin (q : Fin 64) (d : Fin 512) : EReal := (∑ c : Fin 512, ctx X W (hd c) q (lane c) * P d c) + β d

/-! ## The whole arrays

The input is 16 × 4096 × 512; both programs first regroup it, in row-major order, as 1024 windows of 64 positions, run
every window, and lay the 1024 × 64 × 512 result out as 16 × 4096 × 512 again. Element `(B, n, d)` of the result is
therefore window `(B * 4096 + n) / 64`, position `(B * 4096 + n) % 64`, channel `d`. -/

/-- The shapes, spelt once (each program's own names for them are these literals). -/
abbrev SIn : Shape := ⟨3, ![16, 4096, 512]⟩
abbrev SWin : Shape := ⟨3, ![1024, 64, 512]⟩
abbrev SW : Shape := ⟨2, ![1536, 512]⟩
abbrev SP : Shape := ⟨2, ![512, 512]⟩
abbrev SB : Shape := ⟨1, ![512]⟩

open ValueIdx in
/-- Every window's output, over the regrouped input `A`. -/
def Gwin (A : SWin.Idx → EReal) (Wt : SW.Idx → EReal) (Pt : SP.Idx → EReal) (bias : SB.Idx → EReal) : SWin.Idx → EReal :=
  fun j => attnWin (fun q c => A (ix3 (j 0) q c)) (fun d c => Wt (ix2 d c)) (fun d c => Pt (ix2 d c)) (fun d => bias (ix1 d)) (j 1) (j 2)

open ValueIdx in
/-- The window, position and channel of an element of the 16 × 4096 × 512 layout. -/
def winIdx (i : SIn.Idx) : SWin.Idx :=
  ix3 (⟨((i 0).val * 4096 + (i 1).val) / 64, by have h0 : (i 0).val < 16 := (i 0).isLt; have h1 : (i 1).val < 4096 := (i 1).isLt; show _ < 1024; omega⟩ : Fin 1024)
    (⟨((i 0).val * 4096 + (i 1).val) % 64, by show _ < 64; omega⟩ : Fin 64) (⟨(i 2).val, (i 2).isLt⟩ : Fin 512)

/-- The result both programs end with, as ONE function of the four argument arrays. -/
def G (hc : SIn.ShapeCasts SWin) (x : SIn.Idx → EReal) (Wt : SW.Idx → EReal) (Pt : SP.Idx → EReal) (bias : SB.Idx → EReal) :
    SIn.Idx → EReal :=
  fun i => Gwin (shapeCast SWin x hc) Wt Pt bias (winIdx i)

end Cert.Attn

end
-- ==== Proof.KHeadValue.lean ====
/-
  One head of the kernel's body, read at an index at `Ideal`: the head's attention result `Cert.Attn.ctx` of the
  block's window.
-/
import proofs.«145423_j50182397886562_1_alg».proof.Proof.KHead
import proofs.«145423_j50182397886562_1_alg».proof.Proof.Spec
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx
open Cert.KernelIdeal Cert.KernelIdeal.Gen

/-! ## The three contractions' operand indices, axis by axis

The projection is rows × channels against channels × columns; the scores contract the lane axis of queries and keys
within a window; the result contracts the key position of the weights against the values' position axis. -/

theorem lhs_proj_0 (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
theorem lhs_proj_1 (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q
theorem rhs_proj_0 (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q
theorem rhs_proj_1 (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl
theorem lhs_qk_0 (i : S16x64x64.Idx) (q : dot_S16x64x64_S16x64x64_S16x64x64_2_2_1_1_0_0.contr.Idx) :
    (dot_S16x64x64_S16x64x64_S16x64x64_2_2_1_1_0_0.lhsIdx i q 0).val = (i 0).val := by
  unfold DotDims.lhsIdx
  rw [dif_pos (show (0 : Fin S16x64x64.rank) ∈ dot_S16x64x64_S16x64x64_S16x64x64_2_2_1_1_0_0.lhsBatch by decide)]
  rfl
theorem lhs_qk_1 (i : S16x64x64.Idx) (q : dot_S16x64x64_S16x64x64_S16x64x64_2_2_1_1_0_0.contr.Idx) :
    (dot_S16x64x64_S16x64x64_S16x64x64_2_2_1_1_0_0.lhsIdx i q 1).val = (i 1).val := by
  unfold DotDims.lhsIdx
  rw [dif_neg (show ¬(1 : Fin S16x64x64.rank) ∈ dot_S16x64x64_S16x64x64_S16x64x64_2_2_1_1_0_0.lhsBatch by decide), dif_pos (show (1 : Fin S16x64x64.rank) ∈ dot_S16x64x64_S16x64x64_S16x64x64_2_2_1_1_0_0.lhsNonContracting by decide)]
  rfl
theorem lhs_qk_2 (i : S16x64x64.Idx) (q : dot_S16x64x64_S16x64x64_S16x64x64_2_2_1_1_0_0.contr.Idx) :
    (dot_S16x64x64_S16x64x64_S16x64x64_2_2_1_1_0_0.lhsIdx i q 2).val = (q ⟨0, by decide⟩).val :=
  dot_S16x64x64_S16x64x64_S16x64x64_2_2_1_1_0_0.lhsIdx_val_of_single rfl i q
theorem rhs_qk_0 (i : S16x64x64.Idx) (q : dot_S16x64x64_S16x64x64_S16x64x64_2_2_1_1_0_0.contr.Idx) :
    (dot_S16x64x64_S16x64x64_S16x64x64_2_2_1_1_0_0.rhsIdx i q 0).val = (i 0).val := by
  unfold DotDims.rhsIdx
  rw [dif_pos (show (0 : Fin S16x64x64.rank) ∈ dot_S16x64x64_S16x64x64_S16x64x64_2_2_1_1_0_0.rhsBatch by decide)]
  rfl
theorem rhs_qk_1 (i : S16x64x64.Idx) (q : dot_S16x64x64_S16x64x64_S16x64x64_2_2_1_1_0_0.contr.Idx) :
    (dot_S16x64x64_S16x64x64_S16x64x64_2_2_1_1_0_0.rhsIdx i q 1).val = (i 2).val := by
  unfold DotDims.rhsIdx
  rw [dif_neg (show ¬(1 : Fin S16x64x64.rank) ∈ dot_S16x64x64_S16x64x64_S16x64x64_2_2_1_1_0_0.rhsBatch by decide), dif_pos (show (1 : Fin S16x64x64.rank) ∈ dot_S16x64x64_S16x64x64_S16x64x64_2_2_1_1_0_0.rhsNonContracting by decide)]
  rfl
theorem rhs_qk_2 (i : S16x64x64.Idx) (q : dot_S16x64x64_S16x64x64_S16x64x64_2_2_1_1_0_0.contr.Idx) :
    (dot_S16x64x64_S16x64x64_S16x64x64_2_2_1_1_0_0.rhsIdx i q 2).val = (q ⟨0, by decide⟩).val :=
  dot_S16x64x64_S16x64x64_S16x64x64_2_2_1_1_0_0.rhsIdx_val_of_single rfl i q
theorem lhs_pv_0 (i : S16x64x64.Idx) (q : dot_S16x64x64_S16x64x64_S16x64x64_2_1_1_2_0_0.contr.Idx) :
    (dot_S16x64x64_S16x64x64_S16x64x64_2_1_1_2_0_0.lhsIdx i q 0).val = (i 0).val := by
  unfold DotDims.lhsIdx
  rw [dif_pos (show (0 : Fin S16x64x64.rank) ∈ dot_S16x64x64_S16x64x64_S16x64x64_2_1_1_2_0_0.lhsBatch by decide)]
  rfl
theorem lhs_pv_1 (i : S16x64x64.Idx) (q : dot_S16x64x64_S16x64x64_S16x64x64_2_1_1_2_0_0.contr.Idx) :
    (dot_S16x64x64_S16x64x64_S16x64x64_2_1_1_2_0_0.lhsIdx i q 1).val = (i 1).val := by
  unfold DotDims.lhsIdx
  rw [dif_neg (show ¬(1 : Fin S16x64x64.rank) ∈ dot_S16x64x64_S16x64x64_S16x64x64_2_1_1_2_0_0.lhsBatch by decide), dif_pos (show (1 : Fin S16x64x64.rank) ∈ dot_S16x64x64_S16x64x64_S16x64x64_2_1_1_2_0_0.lhsNonContracting by decide)]
  rfl
theorem lhs_pv_2 (i : S16x64x64.Idx) (q : dot_S16x64x64_S16x64x64_S16x64x64_2_1_1_2_0_0.contr.Idx) :
    (dot_S16x64x64_S16x64x64_S16x64x64_2_1_1_2_0_0.lhsIdx i q 2).val = (q ⟨0, by decide⟩).val :=
  dot_S16x64x64_S16x64x64_S16x64x64_2_1_1_2_0_0.lhsIdx_val_of_single rfl i q
theorem rhs_pv_0 (i : S16x64x64.Idx) (q : dot_S16x64x64_S16x64x64_S16x64x64_2_1_1_2_0_0.contr.Idx) :
    (dot_S16x64x64_S16x64x64_S16x64x64_2_1_1_2_0_0.rhsIdx i q 0).val = (i 0).val := by
  unfold DotDims.rhsIdx
  rw [dif_pos (show (0 : Fin S16x64x64.rank) ∈ dot_S16x64x64_S16x64x64_S16x64x64_2_1_1_2_0_0.rhsBatch by decide)]
  rfl
theorem rhs_pv_1 (i : S16x64x64.Idx) (q : dot_S16x64x64_S16x64x64_S16x64x64_2_1_1_2_0_0.contr.Idx) :
    (dot_S16x64x64_S16x64x64_S16x64x64_2_1_1_2_0_0.rhsIdx i q 1).val = (q ⟨0, by decide⟩).val :=
  dot_S16x64x64_S16x64x64_S16x64x64_2_1_1_2_0_0.rhsIdx_val_of_single rfl i q
theorem rhs_pv_2 (i : S16x64x64.Idx) (q : dot_S16x64x64_S16x64x64_S16x64x64_2_1_1_2_0_0.contr.Idx) :
    (dot_S16x64x64_S16x64x64_S16x64x64_2_1_1_2_0_0.rhsIdx i q 2).val = (i 2).val := by
  unfold DotDims.rhsIdx
  rw [dif_neg (show ¬(2 : Fin S16x64x64.rank) ∈ dot_S16x64x64_S16x64x64_S16x64x64_2_1_1_2_0_0.rhsBatch by decide), dif_pos (show (2 : Fin S16x64x64.rank) ∈ dot_S16x64x64_S16x64x64_S16x64x64_2_1_1_2_0_0.rhsNonContracting by decide)]
  rfl

/-- The projection's product into the zero splat, at row `r` and column `d`: the sum over the 512 channels. -/
theorem matmul_proj_apply (A : FVec Ideal S1024x512 .bf16) (B : FVec Ideal S512x1536 .bf16) (r : Fin 1024) (d : Fin 1536) :
    matmul (F := Ideal) dot_S1024x512_S512x1536_S1024x1536_1_0_0_1_n_n none A B (constant S1024x1536 .f32 0x00000000#32) (ix2 r d)
      = ∑ k : Fin 512, A (ix2 r k) * B (ix2 k d) := by
  simp only [matmul]
  rw [Ideal.matmul_constant_zero_apply, ← Equiv.sum_comp (ValueIdx.contrEquiv1 dot_S1024x512_S512x1536_S1024x1536_1_0_0_1_n_n 512 rfl rfl).symm]
  refine Finset.sum_congr rfl fun k _ => ?_
  have hk := ValueIdx.contrEquiv1_symm_val dot_S1024x512_S512x1536_S1024x1536_1_0_0_1_n_n 512 rfl rfl k
  have el : dot_S1024x512_S512x1536_S1024x1536_1_0_0_1_n_n.lhsIdx (ix2 r d) ((ValueIdx.contrEquiv1 dot_S1024x512_S512x1536_S1024x1536_1_0_0_1_n_n 512 rfl rfl).symm k) = ix2 r k := funext fun a => Fin.ext (by
    match a with
    | ⟨0, _⟩ => exact lhs_proj_0 _ _
    | ⟨1, _⟩ => exact (lhs_proj_1 _ _).trans hk)
  have er : dot_S1024x512_S512x1536_S1024x1536_1_0_0_1_n_n.rhsIdx (ix2 r d) ((ValueIdx.contrEquiv1 dot_S1024x512_S512x1536_S1024x1536_1_0_0_1_n_n 512 rfl rfl).symm k) = ix2 k d := funext fun a => Fin.ext (by
    match a with
    | ⟨0, _⟩ => exact (rhs_proj_0 _ _).trans hk
    | ⟨1, _⟩ => exact rhs_proj_1 _ _)
  rw [el, er]

/-- Queries against keys within window `b`: the sum over the 64 lanes. -/
theorem matmul_qk_apply (A : FVec Ideal S16x64x64 .bf16) (B : FVec Ideal S16x64x64 .bf16) (b : Fin 16) (q k' : Fin 64) :
    matmul (F := Ideal) dot_S16x64x64_S16x64x64_S16x64x64_2_2_1_1_0_0 none A B (constant S16x64x64 .f32 0x00000000#32) (ix3 b q k')
      = ∑ k : Fin 64, A (ix3 b q k) * B (ix3 b k' k) := by
  simp only [matmul]
  rw [Ideal.matmul_constant_zero_apply, ← Equiv.sum_comp (ValueIdx.contrEquiv1 dot_S16x64x64_S16x64x64_S16x64x64_2_2_1_1_0_0 64 rfl rfl).symm]
  refine Finset.sum_congr rfl fun k _ => ?_
  have hk := ValueIdx.contrEquiv1_symm_val dot_S16x64x64_S16x64x64_S16x64x64_2_2_1_1_0_0 64 rfl rfl k
  have el : dot_S16x64x64_S16x64x64_S16x64x64_2_2_1_1_0_0.lhsIdx (ix3 b q k') ((ValueIdx.contrEquiv1 dot_S16x64x64_S16x64x64_S16x64x64_2_2_1_1_0_0 64 rfl rfl).symm k) = ix3 b q k := funext fun a => Fin.ext (by
    match a with
    | ⟨0, _⟩ => exact lhs_qk_0 _ _
    | ⟨1, _⟩ => exact lhs_qk_1 _ _
    | ⟨2, _⟩ => exact (lhs_qk_2 _ _).trans hk)
  have er : dot_S16x64x64_S16x64x64_S16x64x64_2_2_1_1_0_0.rhsIdx (ix3 b q k') ((ValueIdx.contrEquiv1 dot_S16x64x64_S16x64x64_S16x64x64_2_2_1_1_0_0 64 rfl rfl).symm k) = ix3 b k' k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-- Weights against values within window `b`: the sum over the 64 key positions. -/
theorem matmul_pv_apply (A : FVec Ideal S16x64x64 .bf16) (B : FVec Ideal S16x64x64 .bf16) (b : Fin 16) (q e : Fin 64) :
    matmul (F := Ideal) dot_S16x64x64_S16x64x64_S16x64x64_2_1_1_2_0_0 none A B (constant S16x64x64 .f32 0x00000000#32) (ix3 b q e)
      = ∑ k : Fin 64, A (ix3 b q k) * B (ix3 b k e) := by
  simp only [matmul]
  rw [Ideal.matmul_constant_zero_apply, ← Equiv.sum_comp (ValueIdx.contrEquiv1 dot_S16x64x64_S16x64x64_S16x64x64_2_1_1_2_0_0 64 rfl rfl).symm]
  refine Finset.sum_congr rfl fun k _ => ?_
  have hk := ValueIdx.contrEquiv1_symm_val dot_S16x64x64_S16x64x64_S16x64x64_2_1_1_2_0_0 64 rfl rfl k
  have el : dot_S16x64x64_S16x64x64_S16x64x64_2_1_1_2_0_0.lhsIdx (ix3 b q e) ((ValueIdx.contrEquiv1 dot_S16x64x64_S16x64x64_S16x64x64_2_1_1_2_0_0 64 rfl rfl).symm k) = ix3 b q k := funext fun a => Fin.ext (by
    match a with
    | ⟨0, _⟩ => exact lhs_pv_0 _ _
    | ⟨1, _⟩ => exact lhs_pv_1 _ _
    | ⟨2, _⟩ => exact (lhs_pv_2 _ _).trans hk)
  have er : dot_S16x64x64_S16x64x64_S16x64x64_2_1_1_2_0_0.rhsIdx (ix3 b q e) ((ValueIdx.contrEquiv1 dot_S16x64x64_S16x64x64_S16x64x64_2_1_1_2_0_0 64 rfl rfl).symm k) = ix3 b k e := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-! ## The fused projection at an index -/

/-- The fused projection at the row of window `b`, position `q` (row `64 b + q` of the regrouped block) and column `d`:
    the window's projection `Cert.Attn.proj`. -/
theorem pay3_apply (x0 : Vec Ideal S16x64x512 .f32) (x1 : Vec Ideal S1536x512 .f32) (b : Fin 16) (q : Fin 64) (r : Fin 1024)
    (hr : r.val = b.val * 64 + q.val) (d : Fin 1536) :
    k0_pay3 (F := Ideal) x0 x1 (ix2 r d) = Cert.Attn.proj (fun q c => x0 (ix3 b q c)) (fun d c => x1 (ix2 d c)) q d := by
  unfold k0_pay3 Cert.Attn.proj
  refine (matmul_proj_apply _ _ r d).trans ?_
  refine Finset.sum_congr rfl fun c _ => ?_
  congr 1
  · show shapeCast S1024x512 (shapeCast S16x64x512 x0 shapeCasts_S16x64x512_S16x64x512) shapeCasts_S16x64x512_S1024x512 (ix2 r c) = _
    rw [shapeCast_self]
    exact shapeCast_apply x0 shapeCasts_S16x64x512_S1024x512 (ix2 r c) (ix3 b q c)
      (by rw [Shape.rowMajor_val_three, Shape.rowMajor_val_two]
          show (b.val * 64 + q.val) * 512 + c.val = r.val * 512 + c.val
          rw [hr])
  · show transpose S512x1536 [1, 0] x1 transposes_S1536x512_p1_0_S512x1536 (ix2 c d) = _
    exact transpose_apply [1, 0] x1 transposes_S1536x512_p1_0_S512x1536 (ix2 c d) (ix2 d c) (fun b => match b with
      | ⟨0, _⟩ => rfl
      | ⟨1, _⟩ => rfl)

/-- A 512-column third of the fused projection, at column offset `off`: column `c` of the third is column `off + c`. -/
theorem third_apply (off : Nat) (hsl : S1024x1536.Slices ![0, off] S1024x512) (v : FVec Ideal S1024x1536 .f32)
    (r : Fin 1024) (c : Fin 512) (d : Fin 1536) (hd : d.val = off + c.val) :
    extractStridedSlice S1024x512 ![0, off] v hsl (ix2 r c) = v (ix2 r d) :=
  extractStridedSlice_apply ![0, off] v hsl (ix2 r c) (ix2 r d) (fun a => match a with
    | ⟨0, _⟩ => by show r.val = 0 + r.val; omega
    | ⟨1, _⟩ => hd)

/-! ## One head's chain, piece by piece

The head's term is the composition of the pieces named here (`headVec_eq`, by unfolding); each is read at a window
`b`, position `q` and key position or lane. -/

/-- The 64 lanes from `o` of a projected block, its 1024 rows regrouped as 16 windows of 64 positions. -/
def headSlice (o : Nat) (hs : S1024x512.Slices ![0, o] S1024x64) (v : FVec Ideal S1024x512 .f32) : FVec Ideal S16x64x64 .f32 :=
  shapeCast S16x64x64 (extractStridedSlice S1024x64 ![0, o] v hs) shapeCasts_S1024x64_S16x64x64

/-- The scaled scores of queries `Q` against keys `K`. -/
def scoresOf (Q K : FVec Ideal S16x64x64 .f32) : FVec Ideal S16x64x64 .f32 :=
  mulf (matmul dot_S16x64x64_S16x64x64_S16x64x64_2_2_1_1_0_0 none (truncf .bf16 Q bitsLt_bf16_f32) (truncf .bf16 K bitsLt_bf16_f32)
      (constant S16x64x64 .f32 0x00000000#32))
    (broadcast S16x64x64 (Scalar.ofBits .f32 0x3E000000#32))

/-- Each row's maximum, spread back along the row. -/
def rowMaxOf (s : FVec Ideal S16x64x64 .f32) : FVec Ideal S16x64x64 .f32 :=
  broadcastTo S16x64x64
    (shapeCast S16x64x1
      (maximumf (broadcast S16x64 (Scalar.ofBits .f32 0xFF800000#32))
        (multiReduction .maximumf [2] S16x64 s 0xFF800000#32 reduces_S16x64x64_S16x64 (.inl rfl) rfl))
      shapeCasts_S16x64_S16x64x1)
    broadcasts_S16x64x1_S16x64x64

/-- The exponentials of the scores less their row's maximum. -/
def expOf (s : FVec Ideal S16x64x64 .f32) : FVec Ideal S16x64x64 .f32 := exp (subf s (rowMaxOf s))

/-- Each row's sum, spread back along the row. -/
def rowSumOf (ex : FVec Ideal S16x64x64 .f32) : FVec Ideal S16x64x64 .f32 :=
  broadcastTo S16x64x64
    (shapeCast S16x64x1 (multiReduction .add [2] S16x64 ex 0x00000000#32 reduces_S16x64x64_S16x64 (.inl rfl) rfl)
      shapeCasts_S16x64_S16x64x1)
    broadcasts_S16x64x1_S16x64x64

/-- The attention weights. -/
def probOf (s : FVec Ideal S16x64x64 .f32) : FVec Ideal S16x64x64 .f32 := divf (expOf s) (rowSumOf (expOf s))

/-- The weights against the values `V`. -/
def ctxOf (s V : FVec Ideal S16x64x64 .f32) : FVec Ideal S16x64x64 .f32 :=
  shapeCast S16x64x64
    (matmul dot_S16x64x64_S16x64x64_S16x64x64_2_1_1_2_0_0 none (truncf .bf16 (probOf s) bitsLt_bf16_f32) (truncf .bf16 V bitsLt_bf16_f32)
      (constant S16x64x64 .f32 0x00000000#32))
    shapeCasts_S16x64x64_S16x64x64

/-- The head is the composition of these pieces. -/
theorem headVec_eq (o : Nat) (hs : S1024x512.Slices ![0, o] S1024x64) (vq vk vv : FVec Ideal S1024x512 .f32) :
    headVec (F := Ideal) o hs vq vk vv = ctxOf (scoresOf (headSlice o hs vq) (headSlice o hs vk)) (headSlice o hs vv) := rfl

/-- The regrouped slice at window `b`, position `q`, lane `e` is the block at row `64 b + q`, column `o + e`. -/
theorem headSlice_apply (o : Nat) (hs : S1024x512.Slices ![0, o] S1024x64) (v : FVec Ideal S1024x512 .f32)
    (b : Fin 16) (q e : Fin 64) (r : Fin 1024) (c : Fin 512) (hr : r.val = b.val * 64 + q.val) (hc : c.val = o + e.val) :
    headSlice o hs v (ix3 b q e) = v (ix2 r c) := by
  unfold headSlice
  refine (shapeCast_apply _ shapeCasts_S1024x64_S16x64x64 (ix3 b q e) (ix2 r e)
    (by rw [Shape.rowMajor_val_three, Shape.rowMajor_val_two]
        show r.val * 64 + e.val = (b.val * 64 + q.val) * 64 + e.val
        rw [hr])).trans ?_
  exact extractStridedSlice_apply ![0, o] v hs (ix2 r e) (ix2 r c) (fun a => match a with
    | ⟨0, _⟩ => by show r.val = 0 + r.val; omega
    | ⟨1, _⟩ => hc)

/-- The scaled scores at window `b`, query position `q`, key position `k`. -/
theorem scoresOf_apply (Q K : FVec Ideal S16x64x64 .f32) (b : Fin 16) (q k : Fin 64) :
    scoresOf Q K (ix3 b q k) = (∑ e : Fin 64, Q (ix3 b q e) * K (ix3 b k e)) * Ideal.ofBits .f32 0x3E000000#32 := by
  unfold scoresOf
  rw [mulf_apply, matmul_qk_apply]
  rfl

/-- The spread row maximum at window `b`, position `q`, anywhere along the row. -/
theorem rowMaxOf_apply (s : FVec Ideal S16x64x64 .f32) (b : Fin 16) (q k : Fin 64) :
    rowMaxOf s (ix3 b q k)
      = max (Ideal.ofBits .f32 0xFF800000#32)
          ((Finset.univ : Finset (Fin 64)).fold max (Ideal.ofBits .f32 0xFF800000#32) (fun k' => s (ix3 b q k'))) := by
  unfold rowMaxOf
  refine (broadcastTo_apply _ broadcasts_S16x64x1_S16x64x64 (ix3 b q k) (ix3 b q (⟨0, Nat.one_pos⟩ : Fin 1)) (fun a => match a with
    | ⟨0, _⟩ => by show b.val = if (16 : Nat) = 1 then 0 else b.val; rw [if_neg (by decide)]
    | ⟨1, _⟩ => by show q.val = if (64 : Nat) = 1 then 0 else q.val; rw [if_neg (by decide)]
    | ⟨2, _⟩ => by show 0 = if (1 : Nat) = 1 then 0 else k.val; rw [if_pos rfl])).trans ?_
  refine (shapeCast_apply _ shapeCasts_S16x64_S16x64x1 (ix3 b q (⟨0, Nat.one_pos⟩ : Fin 1)) (ix2 b q)
    (by rw [Shape.rowMajor_val_three, Shape.rowMajor_val_two]; show b.val * 64 + q.val = (b.val * 64 + q.val) * 1 + 0; omega)).trans ?_
  refine (congrArg (max (Ideal.ofBits .f32 0xFF800000#32))
    (Ideal.multiReduction_maximumf_single s 0xFF800000#32 reduces_S16x64x64_S16x64 (.inl rfl) rfl (ix2 b q))).trans ?_
  refine congrArg (fun f => max (Ideal.ofBits .f32 0xFF800000#32)
    ((Finset.univ : Finset (Fin 64)).fold max (Ideal.ofBits .f32 0xFF800000#32) f)) ?_
  exact funext fun k' => congrArg s (funext fun a => Fin.ext (by
    match a with
    | ⟨0, _⟩ => rfl
    | ⟨1, _⟩ => rfl
    | ⟨2, _⟩ => rfl))

/-- The exponential at an index. -/
theorem expOf_apply (s : FVec Ideal S16x64x64 .f32) (i : S16x64x64.Idx) :
    expOf s i = Ideal.exp (s i - rowMaxOf s i) := rfl

/-- The spread row sum at window `b`, position `q`, anywhere along the row. -/
theorem rowSumOf_apply (ex : FVec Ideal S16x64x64 .f32) (b : Fin 16) (q k : Fin 64) :
    rowSumOf ex (ix3 b q k) = ∑ k' : Fin 64, ex (ix3 b q k') := by
  unfold rowSumOf
  refine (broadcastTo_apply _ broadcasts_S16x64x1_S16x64x64 (ix3 b q k) (ix3 b q (⟨0, Nat.one_pos⟩ : Fin 1)) (fun a => match a with
    | ⟨0, _⟩ => by show b.val = if (16 : Nat) = 1 then 0 else b.val; rw [if_neg (by decide)]
    | ⟨1, _⟩ => by show q.val = if (64 : Nat) = 1 then 0 else q.val; rw [if_neg (by decide)]
    | ⟨2, _⟩ => by show 0 = if (1 : Nat) = 1 then 0 else k.val; rw [if_pos rfl])).trans ?_
  refine (shapeCast_apply _ shapeCasts_S16x64_S16x64x1 (ix3 b q (⟨0, Nat.one_pos⟩ : Fin 1)) (ix2 b q)
    (by rw [Shape.rowMajor_val_three, Shape.rowMajor_val_two]; show b.val * 64 + q.val = (b.val * 64 + q.val) * 1 + 0; omega)).trans ?_
  refine (Ideal.multiReduction_add_single ex 0x00000000#32 reduces_S16x64x64_S16x64 (.inl rfl) rfl (ix2 b q)).trans ?_
  exact Finset.sum_congr rfl fun k' _ => congrArg ex (funext fun a => Fin.ext (by
    match a with
    | ⟨0, _⟩ => rfl
    | ⟨1, _⟩ => rfl
    | ⟨2, _⟩ => rfl))

/-- The attention weight at an index. -/
theorem probOf_apply (s : FVec Ideal S16x64x64 .f32) (i : S16x64x64.Idx) :
    probOf s i = Ideal.div (expOf s i) (rowSumOf (expOf s) i) := rfl

/-- The weights against the values at window `b`, position `q`, lane `e`: the sum over the key positions. -/
theorem ctxOf_apply (s V : FVec Ideal S16x64x64 .f32) (b : Fin 16) (q e : Fin 64) :
    ctxOf s V (ix3 b q e) = ∑ k : Fin 64, probOf s (ix3 b q k) * V (ix3 b k e) := by
  unfold ctxOf
  rw [shapeCast_self, matmul_pv_apply]
  rfl

/-! ## The head's queries, keys and values are the window's projections -/

section Head
variable (h : Fin 8) (hs : S1024x512.Slices ![0, h.val * 64] S1024x64)
  (x0 : Vec Ideal S16x64x512 .f32) (x1 : Vec Ideal S1536x512 .f32) (b : Fin 16)

/-- The row of window `b`, position `q` in the regrouped block. -/
abbrev headRow (b : Fin 16) (q : Fin 64) : Fin 1024 := ⟨b.val * 64 + q.val, by have := b.isLt; have := q.isLt; omega⟩
/-- Head `h`, lane `e`: the lane of a 512-column third. -/
abbrev headLane (h : Fin 8) (e : Fin 64) : Fin 512 := ⟨h.val * 64 + e.val, by have := h.isLt; have := e.isLt; omega⟩

theorem headQ_apply (q e : Fin 64) :
    headSlice (h.val * 64) hs (vQ x0 x1) (ix3 b q e)
      = Cert.Attn.proj (fun q c => x0 (ix3 b q c)) (fun d c => x1 (ix2 d c)) q (Cert.Attn.colQ h e) :=
  (headSlice_apply _ hs _ b q e (headRow b q) (headLane h e) rfl rfl).trans
    ((third_apply 0 slices_S1024x1536_o0_0_S1024x512 (k0_pay3 x0 x1) (headRow b q) (headLane h e) (Cert.Attn.colQ h e)
        (by show h.val * 64 + e.val = 0 + (h.val * 64 + e.val); omega)).trans
      (pay3_apply x0 x1 b q (headRow b q) rfl _))

theorem headK_apply (k e : Fin 64) :
    headSlice (h.val * 64) hs (vK x0 x1) (ix3 b k e)
      = Cert.Attn.proj (fun q c => x0 (ix3 b q c)) (fun d c => x1 (ix2 d c)) k (Cert.Attn.colK h e) :=
  (headSlice_apply _ hs _ b k e (headRow b k) (headLane h e) rfl rfl).trans
    ((third_apply 512 slices_S1024x1536_o0_512_S1024x512 (k0_pay3 x0 x1) (headRow b k) (headLane h e) (Cert.Attn.colK h e) rfl).trans
      (pay3_apply x0 x1 b k (headRow b k) rfl _))

theorem headV_apply (k e : Fin 64) :
    headSlice (h.val * 64) hs (vV x0 x1) (ix3 b k e)
      = Cert.Attn.proj (fun q c => x0 (ix3 b q c)) (fun d c => x1 (ix2 d c)) k (Cert.Attn.colV h e) :=
  (headSlice_apply _ hs _ b k e (headRow b k) (headLane h e) rfl rfl).trans
    ((third_apply 1024 slices_S1024x1536_o0_1024_S1024x512 (k0_pay3 x0 x1) (headRow b k) (headLane h e) (Cert.Attn.colV h e) rfl).trans
      (pay3_apply x0 x1 b k (headRow b k) rfl _))

end Head

/-- Head `h` (lane offset `o = 64 h`) of the block `x0` under the fused weights `x1`, at window `b`, position `q`, lane `e`. -/
theorem headVec_apply (o : Nat) (hs : S1024x512.Slices ![0, o] S1024x64) (h : Fin 8) (ho : o = h.val * 64)
    (x0 : Vec Ideal S16x64x512 .f32) (x1 : Vec Ideal S1536x512 .f32) (b : Fin 16) (q e : Fin 64) :
    headVec (F := Ideal) o hs (vQ x0 x1) (vK x0 x1) (vV x0 x1) (ix3 b q e)
      = Cert.Attn.ctx (fun q c => x0 (ix3 b q c)) (fun d c => x1 (ix2 d c)) h q e := by
  subst ho
  rw [headVec_eq]
  -- the scores, the row maximum, the exponentials, the row sum and the weights, each at window `b`
  have hS : ∀ q k : Fin 64, scoresOf (headSlice (h.val * 64) hs (vQ x0 x1)) (headSlice (h.val * 64) hs (vK x0 x1)) (ix3 b q k)
      = Cert.Attn.score (fun q c => x0 (ix3 b q c)) (fun d c => x1 (ix2 d c)) h q k := fun q k => by
    rw [scoresOf_apply]
    unfold Cert.Attn.score
    exact congrArg (· * Ideal.ofBits .f32 0x3E000000#32)
      (Finset.sum_congr rfl fun e _ => by rw [headQ_apply h hs x0 x1 b q e, headK_apply h hs x0 x1 b k e])
  generalize scoresOf (headSlice (h.val * 64) hs (vQ x0 x1)) (headSlice (h.val * 64) hs (vK x0 x1)) = S at hS ⊢
  have hM : ∀ q k : Fin 64, rowMaxOf S (ix3 b q k)
      = Cert.Attn.rowMax (fun q c => x0 (ix3 b q c)) (fun d c => x1 (ix2 d c)) h q := fun q k => by
    rw [rowMaxOf_apply]
    unfold Cert.Attn.rowMax
    exact congrArg (fun f => max (Ideal.ofBits .f32 0xFF800000#32)
      ((Finset.univ : Finset (Fin 64)).fold max (Ideal.ofBits .f32 0xFF800000#32) f)) (funext fun k' => hS q k')
  have hE : ∀ q k : Fin 64, expOf S (ix3 b q k)
      = Cert.Attn.expo (fun q c => x0 (ix3 b q c)) (fun d c => x1 (ix2 d c)) h q k := fun q k => by
    rw [expOf_apply, hS, hM]
    rfl
  have hT : ∀ q k : Fin 64, rowSumOf (expOf S) (ix3 b q k)
      = Cert.Attn.denom (fun q c => x0 (ix3 b q c)) (fun d c => x1 (ix2 d c)) h q := fun q k => by
    rw [rowSumOf_apply]
    exact Finset.sum_congr rfl fun k' _ => hE q k'
  have hP : ∀ q k : Fin 64, probOf S (ix3 b q k)
      = Cert.Attn.prob (fun q c => x0 (ix3 b q c)) (fun d c => x1 (ix2 d c)) h q k := fun q k => by
    rw [probOf_apply, hE, hT]
    rfl
  rw [ctxOf_apply]
  unfold Cert.Attn.ctx
  exact Finset.sum_congr rfl fun k _ => by rw [hP, headV_apply h hs x0 x1 b k e]

end Cert.KernelIdeal.Body

end
-- ==== Proof.KBlockValue.lean ====
/-
  The kernel's output block, read at an index at `Ideal`: window `b` of the block, position `q`, channel `d` is the
  window's attention output `Cert.Attn.attnWin` of that window's 64 × 512 slice of the input block.

  Two readings meet here. The scratch, written in eight pieces of 64 lanes, holds at `(b, q, c)` head `c / 64`'s result at
  lane `c % 64` (each piece is that head's vector, and exactly the piece from lane `64 (c / 64)` covers `c`). The stored
  block is the scratch regrouped as 1024 rows, times the transposed output weights, plus the bias row: at `(b, q, d)` the
  sum over `c` of the scratch at `(b, q, c)` times the weight at `(d, c)`, plus the bias at `d`.
-/
import proofs.«145423_j50182397886562_1_alg».proof.Proof.KBlock
import proofs.«145423_j50182397886562_1_alg».proof.Proof.KHeadValue
import proofs.«145423_j50182397886562_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Body

open Idealize.ShloMosaic Idealize.ShloMosaic.ValueIdx
open Cert.KernelIdeal Cert.KernelIdeal.Gen

/-! ## The output projection's product at an index -/

theorem lhsP_0 (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhsP_1 (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
theorem rhsP_0 (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
theorem rhsP_1 (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Rows times columns into zero: the sum over the shared axis. -/
theorem projDot_apply (l : FVec Ideal S1024x512 .bf16) (r : FVec Ideal S512x512 .bf16) (i : S1024x512.Idx) :
    matmul dot_S1024x512_S512x512_S1024x512_1_0_0_1_n_n none l r (constant S1024x512 .f32 0x00000000#32) i
      = ∑ c : Fin 512, l (ix2 (i 0) c) * r (ix2 c (i 1)) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx i ((ValueIdx.contrEquiv1 dot_S1024x512_S512x512_S1024x512_1_0_0_1_n_n 512 rfl rfl).symm k) = ix2 (i 0) k := funext fun a => Fin.ext (by
    match a with
    | ⟨0, _⟩ => exact lhsP_0 _ _
    | ⟨1, _⟩ => exact (lhsP_1 _ _).trans hk)
  have er : dot_S1024x512_S512x512_S1024x512_1_0_0_1_n_n.rhsIdx i ((ValueIdx.contrEquiv1 dot_S1024x512_S512x512_S1024x512_1_0_0_1_n_n 512 rfl rfl).symm k) = ix2 k (i 1) := funext fun a => Fin.ext (by
    match a with
    | ⟨0, _⟩ => exact (rhsP_0 _ _).trans hk
    | ⟨1, _⟩ => exact rhsP_1 _ _)
  rw [el, er]
  rfl

/-- The stored block over ANY scratch contents `s`: at `(b, q, d)`, the scratch row `(b, q, ·)` against the output
    weights' row `d`, plus the bias at `d`. -/
theorem pay2_apply (s : Vec Ideal S16x64x512 .f32) (x2 : Vec Ideal S512x512 .f32) (x3 : Vec Ideal S1x512 .f32)
    (b : Fin 16) (q : Fin 64) (d : Fin 512) :
    k0_pay2 (F := Ideal) s x2 x3 (ix3 b q d)
      = (∑ c : Fin 512, s (ix3 b q c) * x2 (ix2 d c)) + x3 (ix2 (0 : Fin 1) d) := by
  have hr : b.val * 64 + q.val < 1024 := by have := b.isLt; have := q.isLt; omega
  unfold k0_pay2
  refine (shapeCast_apply _ _ (ix3 b q d) (ix2 (⟨b.val * 64 + q.val, hr⟩ : Fin 1024) d) (by
    rw [Shape.rowMajor_val_two, Shape.rowMajor_val_three]; rfl)).trans ?_
  rw [addf_apply, projDot_apply]
  congr 1
  · refine Finset.sum_congr rfl fun c _ => ?_
    congr 1
    · rw [truncf_apply]
      exact shapeCast_apply _ _ _ (ix3 b q c) (by rw [Shape.rowMajor_val_two, Shape.rowMajor_val_three]; rfl)
    · exact transpose_apply [1, 0] _ _ _ (ix2 d c) (fun a => by match a with | ⟨0, _⟩ => rfl | ⟨1, _⟩ => rfl)
  · rw [shapeCast_self]
    exact broadcastTo_apply _ _ _ (ix2 (0 : Fin 1) d) (fun a => by
      match a with
      | ⟨0, _⟩ => rfl
      | ⟨1, _⟩ => show d.val = if (512 : Nat) = 1 then 0 else d.val; rw [if_neg (by decide)])

/-! ## The scratch at an index -/

variable (x0 : Vec Ideal S16x64x512 .f32) (x1 : Vec Ideal S1536x512 .f32)

/-- What the scratch holds at `(b, q, c)`, by the window and the weights alone. -/
def scratchAt (y : S16x64x512.Idx) : EReal :=
  Cert.Attn.ctx (fun q c => x0 (ix3 (y 0) q c)) (fun d c => x1 (ix2 d c)) (Cert.Attn.hd (y 2)) (y 1) (Cert.Attn.lane (y 2))

/-- A piece stored from lane `64 h` on is head `h`'s vector: at its local index it holds what `scratchAt` says of the
    place it lands. -/
theorem piece_agrees (o : Nat) (hs : S1024x512.Slices ![0, o] S1024x64) (h : Fin 8) (ho : o = h.val * 64)
    (inb : ∀ a, (![0, 0, o] : Fin 3 → Nat) a + (![16, 64, 64] : Fin 3 → Nat) a ≤ S16x64x512.size a)
    (x : (Rect.unit (s := S16x64x512) ![0, 0, o] ![16, 64, 64] inb).shape.Idx) :
    headVec (F := Ideal) o hs (vQ x0 x1) (vK x0 x1) (vV x0 x1) x
      = scratchAt x0 x1 ((Rect.unit (s := S16x64x512) ![0, 0, o] ![16, 64, 64] inb).emb x) := by
  obtain ⟨b, q, e, rfl⟩ : ∃ (b : Fin 16) (q : Fin 64) (e : Fin 64), x = ix3 b q e := ⟨x 0, x 1, x 2, eq_ix3 x⟩
  rw [headVec_apply o hs h ho x0 x1 b q e]
  unfold scratchAt
  have e0 : ((Rect.unit (s := S16x64x512) ![0, 0, o] ![16, 64, 64] inb).emb (ix3 b q e)) 0 = b := Fin.ext (by
    show 0 + 1 * b.val = b.val; omega)
  have e1 : ((Rect.unit (s := S16x64x512) ![0, 0, o] ![16, 64, 64] inb).emb (ix3 b q e)) 1 = q := Fin.ext (by
    show 0 + 1 * q.val = q.val; omega)
  have e2 : (((Rect.unit (s := S16x64x512) ![0, 0, o] ![16, 64, 64] inb).emb (ix3 b q e)) 2).val = o + e.val := by
    show o + 1 * e.val = o + e.val; omega
  have hh : Cert.Attn.hd (((Rect.unit (s := S16x64x512) ![0, 0, o] ![16, 64, 64] inb).emb (ix3 b q e)) 2) = h := Fin.ext (by
    show (((Rect.unit (s := S16x64x512) ![0, 0, o] ![16, 64, 64] inb).emb (ix3 b q e)) 2).val / 64 = h.val
    rw [e2, ho]; have := e.isLt; omega)
  have hl : Cert.Attn.lane (((Rect.unit (s := S16x64x512) ![0, 0, o] ![16, 64, 64] inb).emb (ix3 b q e)) 2) = e := Fin.ext (by
    show (((Rect.unit (s := S16x64x512) ![0, 0, o] ![16, 64, 64] inb).emb (ix3 b q e)) 2).val % 64 = e.val
    rw [e2, ho]; have := e.isLt; omega)
  rw [e0, e1, hh, hl]

/-- The scratch's eight pieces read back at `(b, q, c)`: head `c / 64`, lane `c % 64`. -/
theorem scratch_apply (y : S16x64x512.Idx) : View.canon (scratchPieces x0 x1) y = scratchAt x0 x1 y := by
  refine View.canon_apply_of_pieces (scratchAt x0 x1) (scratchPieces x0 x1) ?_ y ?_
  · intro p hp
    simp only [scratchPieces, List.mem_cons, List.not_mem_nil, or_false] at hp
    rcases hp with rfl | rfl | rfl | rfl | rfl | rfl | rfl | rfl
    · exact piece_agrees x0 x1 448 slices_S1024x512_o0_448_S1024x64 ⟨7, by decide⟩ rfl inb_S16x64x512_S16x64x64_0_0_448
    · exact piece_agrees x0 x1 384 slices_S1024x512_o0_384_S1024x64 ⟨6, by decide⟩ rfl inb_S16x64x512_S16x64x64_0_0_384
    · exact piece_agrees x0 x1 320 slices_S1024x512_o0_320_S1024x64 ⟨5, by decide⟩ rfl inb_S16x64x512_S16x64x64_0_0_320
    · exact piece_agrees x0 x1 256 slices_S1024x512_o0_256_S1024x64 ⟨4, by decide⟩ rfl inb_S16x64x512_S16x64x64_0_0_256
    · exact piece_agrees x0 x1 192 slices_S1024x512_o0_192_S1024x64 ⟨3, by decide⟩ rfl inb_S16x64x512_S16x64x64_0_0_192
    · exact piece_agrees x0 x1 128 slices_S1024x512_o0_128_S1024x64 ⟨2, by decide⟩ rfl inb_S16x64x512_S16x64x64_0_0_128
    · exact piece_agrees x0 x1 64 slices_S1024x512_o0_64_S1024x64 ⟨1, by decide⟩ rfl inb_S16x64x512_S16x64x64_0_0_64
    · exact piece_agrees x0 x1 0 slices_S1024x512_o0_0_S1024x64 ⟨0, by decide⟩ rfl inb_S16x64x512_S16x64x64_0_0_0
  · have h2 : (y 2).val < 512 := (y 2).isLt
    have h0 : (y 0).val < 16 := (y 0).isLt
    have h1 : (y 1).val < 64 := (y 1).isLt
    have hc : (y 2).val / 64 = 7 ∨ (y 2).val / 64 = 6 ∨ (y 2).val / 64 = 5 ∨ (y 2).val / 64 = 4 ∨ (y 2).val / 64 = 3
        ∨ (y 2).val / 64 = 2 ∨ (y 2).val / 64 = 1 ∨ (y 2).val / 64 = 0 := by omega
    simp only [scratchPieces, List.mem_cons, List.not_mem_nil, or_false, exists_eq_or_imp, exists_eq_left, Rect.mem_set_unit]
    rcases hc with hc | hc | hc | hc | hc | hc | hc | hc
    · refine Or.inl ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 448 ≤ (y 2).val; omega, by show (y 2).val < 448 + 64; omega⟩
    · refine Or.inr ?_; refine Or.inl ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 384 ≤ (y 2).val; omega, by show (y 2).val < 384 + 64; omega⟩
    · refine Or.inr ?_; refine Or.inr ?_; refine Or.inl ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 320 ≤ (y 2).val; omega, by show (y 2).val < 320 + 64; omega⟩
    · refine Or.inr ?_; refine Or.inr ?_; refine Or.inr ?_; refine Or.inl ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 256 ≤ (y 2).val; omega, by show (y 2).val < 256 + 64; omega⟩
    · refine Or.inr ?_; refine Or.inr ?_; refine Or.inr ?_; refine Or.inr ?_; refine Or.inl ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 192 ≤ (y 2).val; omega, by show (y 2).val < 192 + 64; omega⟩
    · refine Or.inr ?_; refine Or.inr ?_; refine Or.inr ?_; refine Or.inr ?_; refine Or.inr ?_; refine Or.inl ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 128 ≤ (y 2).val; omega, by show (y 2).val < 128 + 64; omega⟩
    · refine Or.inr ?_; refine Or.inr ?_; refine Or.inr ?_; refine Or.inr ?_; refine Or.inr ?_; refine Or.inr ?_; refine Or.inl ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 64 ≤ (y 2).val; omega, by show (y 2).val < 64 + 64; omega⟩
    · refine Or.inr ?_; refine Or.inr ?_; refine Or.inr ?_; refine Or.inr ?_; refine Or.inr ?_; refine Or.inr ?_; refine Or.inr ?_; intro a; match a with
      | ⟨0, _⟩ => exact ⟨Nat.zero_le _, by show (y 0).val < 0 + 16; omega⟩
      | ⟨1, _⟩ => exact ⟨Nat.zero_le _, by show (y 1).val < 0 + 64; omega⟩
      | ⟨2, _⟩ => exact ⟨by show 0 ≤ (y 2).val; omega, by show (y 2).val < 0 + 64; omega⟩

/-! ## The block -/

/-- The stored block at `(b, q, d)`: the eight heads of window `b` through the output projection, plus the bias. -/
theorem blockOut_apply (x0 : Vec Ideal S16x64x512 .f32) (x1 : Vec Ideal S1536x512 .f32) (x2 : Vec Ideal S512x512 .f32)
    (x3 : Vec Ideal S1x512 .f32) (b : Fin 16) (q : Fin 64) (d : Fin 512) :
    blockOut (F := Ideal) x0 x1 x2 x3 (ix3 b q d)
      = Cert.Attn.attnWin (fun q c => x0 (ix3 b q c)) (fun d c => x1 (ix2 d c)) (fun d c => x2 (ix2 d c))
          (fun d => x3 (ix2 (0 : Fin 1) d)) q d := by
  show k0_pay2 (F := Ideal) (View.canon (scratchPieces x0 x1)) x2 x3 (ix3 b q d) = _
  refine (pay2_apply (View.canon (scratchPieces x0 x1)) x2 x3 b q d).trans ?_
  unfold Cert.Attn.attnWin
  refine congrArg (· + x3 (ix2 (0 : Fin 1) d)) (Finset.sum_congr rfl fun c _ => ?_)
  refine congrArg (· * x2 (ix2 d c)) ?_
  exact scratch_apply x0 x1 (ix3 b q c)

end Cert.KernelIdeal.Body

end
-- ==== Proof.KArray.lean ====
/-
  The kernel program's run at `Ideal`: it ends with its result array at `Cert.Attn.G` of the four arguments, the
  arguments unchanged.
-/
import proofs.«145423_j50182397886562_1_alg».proof.Proof.KBlockValue
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

section Array

variable (m : (ℓ : Loc nD τ sig) → Buf (Elt Ideal) ℓ) (ρ : Dev nD → PrngReg)

/-! ## The arrays the region finds and the blocks staged at a point, at their literal types -/

/-- The regrouped input, 1024 windows of 64 positions of 512 channels. -/
abbrev arrX (c : Dev nD) : Vec Ideal S1024x64x512 .f32 := V m c main_v0
/-- The fused projection's weights. -/
abbrev arrW (c : Dev nD) : Vec Ideal S1536x512 .f32 := V m c main_arg1
/-- The output projection's weights. -/
abbrev arrP (c : Dev nD) : Vec Ideal S512x512 .f32 := V m c main_arg2
/-- The bias as a row. -/
abbrev arrB (c : Dev nD) : Vec Ideal S1x512 .f32 := V m c main_v1

/-- Point `t`'s sixteen windows of the input. -/
abbrev blkX (c : Dev nD) (t : Fin cfg0.N) : Vec Ideal S16x64x512 .f32 := iblk m c 0 t
/-- The weights and the bias row, staged whole at every point. -/
abbrev blkW (c : Dev nD) (t : Fin cfg0.N) : Vec Ideal S1536x512 .f32 := iblk m c 1 t
abbrev blkP (c : Dev nD) (t : Fin cfg0.N) : Vec Ideal S512x512 .f32 := iblk m c 2 t
abbrev blkB (c : Dev nD) (t : Fin cfg0.N) : Vec Ideal S1x512 .f32 := iblk m c 3 t

/-- The index maps over the grid: the input's and the output's block index at point `t` is `(t, 0, 0)`, the weights'
    and the bias row's `(0, 0)`. -/
theorem blockIndex_grid : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## Each staged block is the array read through its rectangle -/

/-- Window `b` of point `t`'s input block is window `16 t + b` of the regrouped input. -/
theorem blkX_apply (c : Dev nD) (t : Fin cfg0.N) (b : Fin 16) (q : Fin 64) (e : Fin 512) (B : Fin 1024)
    (hB : B.val = t.val * 16 + b.val) : blkX m c t (ix3 b q e) = arrX m c (ix3 B q e) := by
  obtain ⟨e0, e1, e2, -⟩ := blockIndex_grid t
  show V m c main_v0 (((cfg0.win 0).blk t).view.emb (ix3 b q e)) = V m c main_v0 (ix3 B q e)
  refine congrArg (V m c main_v0) (funext fun a => Fin.ext ?_)
  match a with
  | ⟨0, _⟩ => show win0_0.index t (0 : Fin 3) * 16 + 1 * b.val = B.val; omega
  | ⟨1, _⟩ => show win0_0.index t (1 : Fin 3) * 64 + 1 * q.val = q.val; omega
  | ⟨2, _⟩ => show win0_0.index t (2 : Fin 3) * 512 + 1 * e.val = e.val; omega

/-- The staged fused weights are the weights. -/
theorem blkW_apply (c : Dev nD) (t : Fin cfg0.N) (d : Fin 1536) (e : Fin 512) :
    blkW m c t (ix2 d e) = arrW m c (ix2 d e) := by
  obtain ⟨-, -, -, e0, e1, -⟩ := blockIndex_grid t
  show V m c main_arg1 (((cfg0.win 1).blk t).view.emb (ix2 d e)) = V m c main_arg1 (ix2 d e)
  refine congrArg (V m c main_arg1) (funext fun a => Fin.ext ?_)
  match a with
  | ⟨0, _⟩ => show win0_1.index t (0 : Fin 2) * 1536 + 1 * d.val = d.val; omega
  | ⟨1, _⟩ => show win0_1.index t (1 : Fin 2) * 512 + 1 * e.val = e.val; omega

/-- The staged output weights are the weights. -/
theorem blkP_apply (c : Dev nD) (t : Fin cfg0.N) (d : Fin 512) (e : Fin 512) :
    blkP m c t (ix2 d e) = arrP m c (ix2 d e) := by
  obtain ⟨-, -, -, -, -, e0, e1, -⟩ := blockIndex_grid t
  show V m c main_arg2 (((cfg0.win 2).blk t).view.emb (ix2 d e)) = V m c main_arg2 (ix2 d e)
  refine congrArg (V m c main_arg2) (funext fun a => Fin.ext ?_)
  match a with
  | ⟨0, _⟩ => show win0_2.index t (0 : Fin 2) * 512 + 1 * d.val = d.val; omega
  | ⟨1, _⟩ => show win0_2.index t (1 : Fin 2) * 512 + 1 * e.val = e.val; omega

/-- The staged bias row is the bias row. -/
theorem blkB_apply (c : Dev nD) (t : Fin cfg0.N) (z : Fin 1) (e : Fin 512) :
    blkB m c t (ix2 z e) = arrB m c (ix2 z e) := by
  obtain ⟨-, -, -, -, -, -, -, e0, e1, -⟩ := blockIndex_grid t
  show V m c main_v1 (((cfg0.win 3).blk t).view.emb (ix2 z e)) = V m c main_v1 (ix2 z e)
  refine congrArg (V m c main_v1) (funext fun a => Fin.ext ?_)
  match a with
  | ⟨0, _⟩ => show win0_3.index t (0 : Fin 2) * 1 + 1 * z.val = z.val; omega
  | ⟨1, _⟩ => show win0_3.index t (1 : Fin 2) * 512 + 1 * e.val = e.val; omega

/-! ## What each point writes back is its block of one whole-array function -/

/-- Every window's output over the arrays the region finds, the bias read off its row. -/
def winOut (c : Dev nD) : Vec Ideal S1024x64x512 .f32 :=
  Cert.Attn.Gwin (arrX m c) (arrW m c) (arrP m c) (fun i => arrB m c (ix2 (0 : Fin 1) (i 0)))

/-- It reads at `(B, q, d)` as window `B`'s output at position `q`, channel `d`. -/
theorem winOut_apply (c : Dev nD) (B : Fin 1024) (q : Fin 64) (d : Fin 512) :
    winOut m c (ix3 B q d)
      = Cert.Attn.attnWin (fun q e => arrX m c (ix3 B q e)) (fun d e => arrW m c (ix2 d e)) (fun d e => arrP m c (ix2 d e))
          (fun d => arrB m c (ix2 (0 : Fin 1) d)) q d := rfl

/-- Window `b` of the block point `t` stores is window `16 t + b` of the whole-array function. -/
theorem blockOut_blk (c : Dev nD) (t : Fin cfg0.N) (b : Fin 16) (q : Fin 64) (d : Fin 512) (B : Fin 1024)
    (hB : B.val = t.val * 16 + b.val) :
    blockOut (F := Ideal) (blkX m c t) (blkW m c t) (blkP m c t) (blkB m c t) (ix3 b q d) = winOut m c (ix3 B q d) := by
  have hX : (fun (q : Fin 64) (e : Fin 512) => blkX m c t (ix3 b q e)) = fun q e => arrX m c (ix3 B q e) :=
    funext fun q => funext fun e => blkX_apply m c t b q e B hB
  have hW : (fun (d : Fin 1536) (e : Fin 512) => blkW m c t (ix2 d e)) = fun d e => arrW m c (ix2 d e) :=
    funext fun d => funext fun e => blkW_apply m c t d e
  have hP : (fun (d : Fin 512) (e : Fin 512) => blkP m c t (ix2 d e)) = fun d e => arrP m c (ix2 d e) :=
    funext fun d => funext fun e => blkP_apply m c t d e
  have hβ : (fun (d : Fin 512) => blkB m c t (ix2 (0 : Fin 1) d)) = fun d => arrB m c (ix2 (0 : Fin 1) d) :=
    funext fun d => blkB_apply m c t 0 d
  rw [winOut_apply, blockOut_apply, hX, hW, hP, hβ]

/-- Where point `t`'s output block sits in the result array: window `b` of the block is window `16 t + b`. -/
theorem outBlock_emb (t : Fin cfg0.N) (b : Fin 16) (q : Fin 64) (d : Fin 512) (B : Fin 1024) (hB : B.val = t.val * 16 + b.val) :
    ((cfg0.win 4).blk t).view.emb (ix3 b q d) = (ix3 B q d : S1024x64x512.Idx) := by
  obtain ⟨-, -, -, -, -, -, -, -, -, e0, e1, e2⟩ := blockIndex_grid t
  refine funext fun a => Fin.ext ?_
  match a with
  | ⟨0, _⟩ => show win0_4.index t (0 : Fin 3) * 16 + 1 * b.val = B.val; omega
  | ⟨1, _⟩ => show win0_4.index t (1 : Fin 3) * 64 + 1 * q.val = q.val; omega
  | ⟨2, _⟩ => show win0_4.index t (2 : Fin 3) * 512 + 1 * d.val = d.val; omega

/-- What point `t` writes back is block `t` of the whole-array function. -/
theorem writeback_eq_windows (c : Dev nD) (t : Fin cfg0.N) :
    (dats m 0 c).flushed 4 t = ((cfg0.win 4).blk t).view.read (Elt Ideal) (winOut m c) := by
  show (cfg0.win 4).cut (grid0.coords t) ((dats m 0 c).after 4 t) = _
  rw [after0_4]
  unfold outsAt0
  rw [out_eq]
  refine funext fun (j : S16x64x512.Idx) => ?_
  obtain ⟨b, q, d, rfl⟩ : ∃ (b : Fin 16) (q : Fin 64) (d : Fin 512), j = ix3 b q d := ⟨j 0, j 1, j 2, eq_ix3 j⟩
  have ht : t.val < 64 := t.isLt
  have hb : b.val < 16 := b.isLt
  show blockOut (F := Ideal) (blkX m c t) (blkW m c t) (blkP m c t) (blkB m c t) (ix3 b q d)
    = winOut m c (((cfg0.win 4).blk t).view.emb (ix3 b q d))
  rw [outBlock_emb t b q d ⟨t.val * 16 + b.val, by omega⟩ rfl]
  exact blockOut_blk m c t b q d _ rfl

/-! ## The blocks cover the result array -/

/-- An index of the result array is in point `t`'s block iff each coordinate is in the block's range on its axis. -/
theorem mem_outBlock (t : Fin cfg0.N) (i : S1024x64x512.Idx) :
    i ∈ ((cfg0.win 4).blk t).view.set ↔ ∀ a : Fin 3, win0_4.index t a * S16x64x512.size a ≤ (i a).val
      ∧ (i a).val < win0_4.index t a * S16x64x512.size a + S16x64x512.size a := by
  show i ∈ ((View.whole main_v2).slice (win0_4.rect t)).set ↔ _
  rw [View.set_slice_whole, Rect.mem_set_unit]
  exact Iff.rfl

/-- Window-row `r` of the result array is written back by point `r / 16`. -/
theorem windows_covered (i : S1024x64x512.Idx) :
    ∃ t : Fin cfg0.N, (cfg0.win 4).flush t = true ∧ i ∈ ((cfg0.win 4).blk t).view.set := by
  have h0 : (i 0).val < 1024 := (i 0).isLt
  have h1 : (i 1).val < 64 := (i 1).isLt
  have h2 : (i 2).val < 512 := (i 2).isLt
  obtain ⟨t, ht⟩ : ∃ t : Fin cfg0.N, t.val = (i 0).val / 16 := ⟨⟨(i 0).val / 16, by show _ < 64; omega⟩, rfl⟩
  obtain ⟨-, -, -, -, -, -, -, -, -, e0, e1, e2⟩ := blockIndex_grid t
  refine ⟨t, flush0_4 t, ?_⟩
  rw [mem_outBlock]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 64 ≤ (i 1).val ∧ (i 1).val < win0_4.index t (1 : Fin 3) * 64 + 64; omega
  | ⟨2, _⟩ => show win0_4.index t (2 : Fin 3) * 512 ≤ (i 2).val ∧ (i 2).val < win0_4.index t (2 : Fin 3) * 512 + 512; omega

/-- The result array of the region after the run: every window's output. -/
theorem regionOut_eq (c : Dev nD) : (dats m 0 c).arrAt 4 cfg0.N = winOut m c :=
  (dats m 0 c).arrAt_eq_of_cover 4 (winOut m c) (fun t _ => writeback_eq_windows m c t) windows_covered

/-! ## The arrays the region finds, from the arguments -/

/-- The regrouped input the region finds is the first argument recast. -/
theorem arrX_eq (c : Dev nD) :
    arrX m c = shapeCast S1024x64x512 (m ((c.tc : Thread nD τ).loc main_arg0)) shapeCasts_S16x4096x512_S1024x64x512 := by
  show V m c main_v0 = _
  dsimp only [Gen.V, Gen.V0]
  simp only [Gen.hostOps0, List.flatten_cons, List.flatten_nil, List.append_nil]
  after_results
  rfl

/-- The bias row the region finds is the fourth argument recast. -/
theorem arrB_eq (c : Dev nD) :
    arrB m c = shapeCast S1x512 (m ((c.tc : Thread nD τ).loc main_arg3)) shapeCasts_S512_S1x512 := by
  show V m c main_v1 = _
  dsimp only [Gen.V, Gen.V0]
  simp only [Gen.hostOps0, List.flatten_cons, List.flatten_nil, List.append_nil]
  after_results
  rfl

/-- The two weight arrays are the arguments themselves. -/
theorem arrW_eq (c : Dev nD) : arrW m c = m ((c.tc : Thread nD τ).loc main_arg1) := V_main_arg1 m c
theorem arrP_eq (c : Dev nD) : arrP m c = m ((c.tc : Thread nD τ).loc main_arg2) := V_main_arg2 m c

/-- The recast bias row read at `(0, d)` is the bias at `d`. -/
theorem arrB_apply (c : Dev nD) (d : Fin 512) :
    arrB m c (ix2 (0 : Fin 1) d) = (m ((c.tc : Thread nD τ).loc main_arg3) : S512.Idx → EReal) (ix1 d) := by
  rw [arrB_eq]
  refine shapeCast_apply _ _ _ _ ?_
  show (S512.rowMajor (ix1 d)).val = (S1x512.rowMajor (ix2 (0 : Fin 1) d)).val
  rw [Shape.rowMajor_val_one, Shape.rowMajor_val_two]
  show d.val = (0 : Fin 1).val * 512 + d.val
  simp

/-- The whole-array function over the arguments themselves. -/
theorem winOut_eq_args (c : Dev nD) :
    winOut m c = Cert.Attn.Gwin
      (shapeCast S1024x64x512 (m ((c.tc : Thread nD τ).loc main_arg0)) shapeCasts_S16x4096x512_S1024x64x512)
      (m ((c.tc : Thread nD τ).loc main_arg1)) (m ((c.tc : Thread nD τ).loc main_arg2)) (m ((c.tc : Thread nD τ).loc main_arg3)) := by
  have hβ : (fun i : S512.Idx => arrB m c (ix2 (0 : Fin 1) (i 0))) = m ((c.tc : Thread nD τ).loc main_arg3) :=
    funext fun i => (arrB_apply m c (i 0)).trans (congrArg _ (eq_ix1 i).symm)
  unfold winOut
  rw [hβ, arrX_eq, arrW_eq, arrP_eq]

/-- The 1024 × 64 × 512 array laid out as 16 × 4096 × 512, read at `i`, is the array at `i`'s window, position and
    channel. -/
theorem regroup_apply (v : S1024x64x512.Idx → EReal) (i : S16x4096x512.Idx) :
    shapeCast S16x4096x512 v shapeCasts_S1024x64x512_S16x4096x512 i = v (Cert.Attn.winIdx i) := by
  refine shapeCast_apply _ _ _ _ ?_
  rw [Shape.rowMajor_val_three, Shape.rowMajor_val_three]
  have h0 : (i 0).val < 16 := (i 0).isLt
  have h1 : (i 1).val < 4096 := (i 1).isLt
  show ((((i 0).val * 4096 + (i 1).val) / 64) * 64 + ((i 0).val * 4096 + (i 1).val) % 64) * 512 + (i 2).val
    = ((i 0).val * 4096 + (i 1).val) * 512 + (i 2).val
  omega

/-! ## The reshape after the region, and the run -/

/-- What the host reshape after the region leaves in the result array: the region's output laid out as 16 × 4096 × 512. -/
theorem afterRegroup_eq (c : Dev nD) :
    Pipeline.afterTail₀ cfgs (dats m) 0 (V0 m) [hostOps1] c main_v3
      = shapeCast S16x4096x512 (winOut m c) shapeCasts_S1024x64x512_S16x4096x512 := by
  unfold Pipeline.afterTail₀
  show StableHlo.after hostOps1 _ (Proc.devRef .tc main_v3) = _
  after_results
  exact congrArg (fun v => shapeCast S16x4096x512 v shapeCasts_S1024x64x512_S16x4096x512)
    ((Pipeline.withArrays_arr spec0 launch0.win.arr_inj c _ _ 4).trans (regionOut_eq m c))

/-- The result array after the run is `G` of the four arguments. -/
theorem result_eq_G (c : Dev nD) :
    Pipeline.afterTail₀ cfgs (dats m) 0 (V0 m) [hostOps1] c main_v3
      = Cert.Attn.G shapeCasts_S16x4096x512_S1024x64x512 (m ((c.tc : Thread nD τ).loc main_arg0))
          (m ((c.tc : Thread nD τ).loc main_arg1)) (m ((c.tc : Thread nD τ).loc main_arg2)) (m ((c.tc : Thread nD τ).loc main_arg3)) := by
  rw [afterRegroup_eq]
  funext i
  rw [regroup_apply, winOut_eq_args]
  rfl

end Array

/-- Every weakly fair execution of the idealized kernel program terminates with `main_v3` holding `G` of the
    arguments and the arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Attn.G shapeCasts_S16x4096x512_S1024x64x512 (m ((c.tc : Thread nD τ).loc main_arg0))
              (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (result_eq_G m c),
      ((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Body

end
-- ==== Proof.RefValue.lean ====
/-
  The reference program's result is the function `Cert.Attn.G` of its four arguments.
-/
import proofs.«145423_j50182397886562_1_alg».proof.Proof.Gen.ReferenceIdeal.Read
import proofs.«145423_j50182397886562_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

section Stages

open Cert.Attn

variable (x0 : (⟨S16x4096x512, .f32⟩ : BufTy).Contents (Elt Ideal)) (x1 : (⟨S1536x512, .f32⟩ : BufTy).Contents (Elt Ideal))
  (x2 : (⟨S512x512, .f32⟩ : BufTy).Contents (Elt Ideal)) (x3 : (⟨S512, .f32⟩ : BufTy).Contents (Elt Ideal))

/-- Window `b` of the regrouped input, as a 64 × 512 matrix. -/
abbrev Xw (b : Fin 1024) : Fin 64 → Fin 512 → EReal := fun q c => val_main_v0 (F := Ideal) x0 (ix3 b q c)
/-- The fused query/key/value weight, as a 1536 × 512 matrix. -/
abbrev Wm : Fin 1536 → Fin 512 → EReal := fun d c => x1 (ix2 d c)

/-! ## The fused projection and its three parts -/

/-- Stage 1 is the fused projection of each window. -/
theorem v1_eq (b : Fin 1024) (q : Fin 64) (d : Fin 1536) :
    val_main_v1 (F := Ideal) x0 x1 (ix3 b q d) = proj (Xw x0 b) (Wm x1) q d := by
  rw [val_main_v1_apply]
  unfold proj
  refine Finset.sum_congr rfl fun c _ => ?_
  have e1 : lidx_main_v1 (ix3 b q d) c = ix3 b q c := funext fun a => by
    match a with | ⟨0, _⟩ => rfl | ⟨1, _⟩ => rfl | ⟨2, _⟩ => rfl
  have e2 : ridx_main_v1 (ix3 b q d) c = ix2 d c := funext fun a => by
    match a with | ⟨0, _⟩ => rfl | ⟨1, _⟩ => rfl
  rw [e1, e2]

/-- Part `z` (0 the queries, 1 the keys, 2 the values), head `h`, lane `e`: column `z*512 + h*64 + e`. -/
def col3 (z : Fin 3) (h : Fin 8) (e : Fin 64) : Fin 1536 :=
  ⟨z.val * 512 + (h.val * 64 + e.val), by have := z.isLt; have := h.isLt; have := e.isLt; omega⟩

theorem col3_zero (h : Fin 8) (e : Fin 64) : col3 ⟨0, by decide⟩ h e = colQ h e :=
  Fin.ext (by show 0 * 512 + (h.val * 64 + e.val) = h.val * 64 + e.val; omega)
theorem col3_one (h : Fin 8) (e : Fin 64) : col3 ⟨1, by decide⟩ h e = colK h e :=
  Fin.ext (by show 1 * 512 + (h.val * 64 + e.val) = 512 + (h.val * 64 + e.val); omega)
theorem col3_two (h : Fin 8) (e : Fin 64) : col3 ⟨2, by decide⟩ h e = colV h e :=
  Fin.ext (by show 2 * 512 + (h.val * 64 + e.val) = 1024 + (h.val * 64 + e.val); omega)

/-- The regrouping of the 1536 columns as (part, head, lane) followed by the transposition: element
    `(z, b, h, q, e)` of stage 3 is element `(b, q, z*512 + h*64 + e)` of stage 1. -/
theorem idx_v2_v3 (z : Fin 3) (b : Fin 1024) (h : Fin 8) (q e : Fin 64) :
    idx_main_v2 (idx_main_v3 (ix5 z b h q e)) = ix3 b q (col3 z h e) := funext fun a => Fin.ext (by
  have hz := z.isLt; have hb := b.isLt; have hh := h.isLt; have hq := q.isLt; have he := e.isLt
  match a with
  | ⟨0, _⟩ => show ((((b.val * 64 + q.val) * 3 + z.val) * 8 + h.val) * 64 + e.val) / 98304 = b.val; omega
  | ⟨1, _⟩ => show ((((b.val * 64 + q.val) * 3 + z.val) * 8 + h.val) * 64 + e.val) / 1536 % 64 = q.val; omega
  | ⟨2, _⟩ => show ((((b.val * 64 + q.val) * 3 + z.val) * 8 + h.val) * 64 + e.val) % 1536 = z.val * 512 + (h.val * 64 + e.val); omega)

theorem v3_eq (z : Fin 3) (b : Fin 1024) (h : Fin 8) (q e : Fin 64) :
    val_main_v3 (F := Ideal) x0 x1 (ix5 z b h q e) = proj (Xw x0 b) (Wm x1) q (col3 z h e) := by
  rw [val_main_v3_apply, val_main_v2_apply, idx_v2_v3, v1_eq]

/-- Dropping the leading axis of size one of a slice. -/
theorem idx_v5 (b : Fin 1024) (h : Fin 8) (q e : Fin 64) :
    idx_main_v5 (ix4 b h q e) = ix5 (⟨0, Nat.one_pos⟩ : Fin 1) b h q e := funext fun a => Fin.ext (by
  have hb := b.isLt; have hh := h.isLt; have hq := q.isLt; have he := e.isLt
  match a with
  | ⟨0, _⟩ => rfl
  | ⟨1, _⟩ => show (((b.val * 8 + h.val) * 64 + q.val) * 64 + e.val) / 32768 % 1024 = b.val; omega
  | ⟨2, _⟩ => show (((b.val * 8 + h.val) * 64 + q.val) * 64 + e.val) / 4096 % 8 = h.val; omega
  | ⟨3, _⟩ => show (((b.val * 8 + h.val) * 64 + q.val) * 64 + e.val) / 64 % 64 = q.val; omega
  | ⟨4, _⟩ => show (((b.val * 8 + h.val) * 64 + q.val) * 64 + e.val) % 64 = e.val; omega)

/-- The queries: columns `h*64 + e`. -/
theorem v5_eq (b : Fin 1024) (h : Fin 8) (q e : Fin 64) :
    val_main_v5 (F := Ideal) x0 x1 (ix4 b h q e) = proj (Xw x0 b) (Wm x1) q (colQ h e) := by
  rw [val_main_v5_apply, idx_v5, val_main_v4_apply]
  have e4 : idx_main_v4 (ix5 (⟨0, Nat.one_pos⟩ : Fin 1) b h q e) = ix5 (⟨0, by decide⟩ : Fin 3) b h q e := funext fun a => by
    match a with | ⟨0, _⟩ => rfl | ⟨1, _⟩ => rfl | ⟨2, _⟩ => rfl | ⟨3, _⟩ => rfl | ⟨4, _⟩ => rfl
  rw [e4, v3_eq, col3_zero]

/-- The keys: columns `512 + h*64 + e`. -/
theorem v7_eq (b : Fin 1024) (h : Fin 8) (q e : Fin 64) :
    val_main_v7 (F := Ideal) x0 x1 (ix4 b h q e) = proj (Xw x0 b) (Wm x1) q (colK h e) := by
  rw [val_main_v7_apply]
  have e7 : idx_main_v7 (ix4 b h q e) = ix5 (⟨0, Nat.one_pos⟩ : Fin 1) b h q e := idx_v5 b h q e
  rw [e7, val_main_v6_apply]
  have e6 : idx_main_v6 (ix5 (⟨0, Nat.one_pos⟩ : Fin 1) b h q e) = ix5 (⟨1, by decide⟩ : Fin 3) b h q e := funext fun a => by
    match a with | ⟨0, _⟩ => rfl | ⟨1, _⟩ => rfl | ⟨2, _⟩ => rfl | ⟨3, _⟩ => rfl | ⟨4, _⟩ => rfl
  rw [e6, v3_eq, col3_one]

/-- The values: columns `1024 + h*64 + e`. -/
theorem v9_eq (b : Fin 1024) (h : Fin 8) (q e : Fin 64) :
    val_main_v9 (F := Ideal) x0 x1 (ix4 b h q e) = proj (Xw x0 b) (Wm x1) q (colV h e) := by
  rw [val_main_v9_apply]
  have e9 : idx_main_v9 (ix4 b h q e) = ix5 (⟨0, Nat.one_pos⟩ : Fin 1) b h q e := idx_v5 b h q e
  rw [e9, val_main_v8_apply]
  have e8 : idx_main_v8 (ix5 (⟨0, Nat.one_pos⟩ : Fin 1) b h q e) = ix5 (⟨2, by decide⟩ : Fin 3) b h q e := funext fun a => by
    match a with | ⟨0, _⟩ => rfl | ⟨1, _⟩ => rfl | ⟨2, _⟩ => rfl | ⟨3, _⟩ => rfl | ⟨4, _⟩ => rfl
  rw [e8, v3_eq, col3_two]

/-! ## Scores, row maximum, exponentials, row sums, weights, and the weighted values -/

/-- Stages 10 to 12: the scaled scores. -/
theorem v12_eq (b : Fin 1024) (h : Fin 8) (q k : Fin 64) :
    val_main_v12 (F := Ideal) x0 x1 (ix4 b h q k) = score (Xw x0 b) (Wm x1) h q k := by
  rw [val_main_v12_apply, val_main_v10_apply, val_main_v11_apply, val_main_cst_apply]
  simp only [Ideal.mulf_def, Ideal.ofBits_def]
  unfold score
  refine congrArg (· * scale) (Finset.sum_congr rfl fun e _ => ?_)
  have e1 : lidx_main_v10 (ix4 b h q k) e = ix4 b h q e := funext fun a => by
    match a with | ⟨0, _⟩ => rfl | ⟨1, _⟩ => rfl | ⟨2, _⟩ => rfl | ⟨3, _⟩ => rfl
  have e2 : ridx_main_v10 (ix4 b h q k) e = ix4 b h k e := funext fun a => by
    match a with | ⟨0, _⟩ => rfl | ⟨1, _⟩ => rfl | ⟨2, _⟩ => rfl | ⟨3, _⟩ => rfl
  rw [e1, e2, v5_eq, v7_eq]

/-- The last axis of the scores is the one the two row reductions drop. -/
theorem red_last : S1024x8x64x64.Reduces [3] S1024x8x64 := by decide

/-- Stage 13: the row maximum, folded from -∞ over the key positions. -/
theorem v13_eq (b : Fin 1024) (h : Fin 8) (q : Fin 64) :
    val_main_v13 (F := Ideal) x0 x1 (ix3 b h q)
      = (Finset.univ : Finset (Fin 64)).fold max negInf (fun k => score (Xw x0 b) (Wm x1) h q k) := by
  unfold val_main_v13
  refine (Host.reduce_eq_fold_single (FloatOps.maximumf (F := Ideal) (φ := .f32)) (val_main_v12 (F := Ideal) x0 x1)
    (val_main_cst_0 (F := Ideal)) reducesTo_S1024x8x64x64_S1024x8x64_d3 red_last h_S_ (ix3 b h q)).trans ?_
  show (Finset.univ : Finset (Fin 64)).fold max negInf (fun k => val_main_v12 (F := Ideal) x0 x1 (red_last.lift (ix3 b h q) k)) = _
  refine Finset.fold_congr fun (k : Fin 64) _ => ?_
  have e : red_last.lift (ix3 b h q) k = ix4 b h q k := funext fun a => Fin.ext (by
    match a with | ⟨0, _⟩ => rfl | ⟨1, _⟩ => rfl | ⟨2, _⟩ => rfl | ⟨3, _⟩ => rfl)
  rw [e, v12_eq]

/-- Stages 14 and 15: once more against -∞. -/
theorem v15_eq (b : Fin 1024) (h : Fin 8) (q : Fin 64) :
    val_main_v15 (F := Ideal) x0 x1 (ix3 b h q) = rowMax (Xw x0 b) (Wm x1) h q := by
  rw [val_main_v15_apply, val_main_v14_apply, val_main_cst_1_apply, v13_eq]
  rfl

/-- Stages 16 and 17: the maximum, repeated along the row. -/
theorem v17_eq (b : Fin 1024) (h : Fin 8) (q k : Fin 64) :
    val_main_v17 (F := Ideal) x0 x1 (ix4 b h q k) = rowMax (Xw x0 b) (Wm x1) h q := by
  rw [val_main_v17_apply, val_main_v16_apply]
  have e : idx_main_v16 (idx_main_v17 (ix4 b h q k)) = ix3 b h q := funext fun a => by
    match a with | ⟨0, _⟩ => rfl | ⟨1, _⟩ => rfl | ⟨2, _⟩ => rfl
  rw [e, v15_eq]

/-- Stages 18 and 19: the exponentials. -/
theorem v19_eq (b : Fin 1024) (h : Fin 8) (q k : Fin 64) :
    val_main_v19 (F := Ideal) x0 x1 (ix4 b h q k) = expo (Xw x0 b) (Wm x1) h q k := by
  rw [val_main_v19_apply, val_main_v18_apply, v12_eq, v17_eq]
  rfl

/-- Stage 20: the row sums (the sum starts from the zero word). -/
theorem v20_eq (b : Fin 1024) (h : Fin 8) (q : Fin 64) :
    val_main_v20 (F := Ideal) x0 x1 (ix3 b h q) = denom (Xw x0 b) (Wm x1) h q := by
  rw [val_main_v20_apply, val_main_cst_2_apply]
  simp only [Ideal.ofBits_def, Ideal.ofBits_zero_f32, zero_add]
  unfold denom
  refine Finset.sum_congr rfl fun k _ => ?_
  have e : idx_main_v20 (ix3 b h q) k = ix4 b h q k := funext fun a => by
    match a with | ⟨0, _⟩ => rfl | ⟨1, _⟩ => rfl | ⟨2, _⟩ => rfl | ⟨3, _⟩ => rfl
  rw [e, v19_eq]

/-- Stages 21 and 22: the row sum, repeated along the row. -/
theorem v22_eq (b : Fin 1024) (h : Fin 8) (q k : Fin 64) :
    val_main_v22 (F := Ideal) x0 x1 (ix4 b h q k) = denom (Xw x0 b) (Wm x1) h q := by
  rw [val_main_v22_apply, val_main_v21_apply]
  have e : idx_main_v21 (idx_main_v22 (ix4 b h q k)) = ix3 b h q := funext fun a => by
    match a with | ⟨0, _⟩ => rfl | ⟨1, _⟩ => rfl | ⟨2, _⟩ => rfl
  rw [e, v20_eq]

/-- Stage 23: the attention weights. -/
theorem v23_eq (b : Fin 1024) (h : Fin 8) (q k : Fin 64) :
    val_main_v23 (F := Ideal) x0 x1 (ix4 b h q k) = prob (Xw x0 b) (Wm x1) h q k := by
  rw [val_main_v23_apply, v19_eq, v22_eq]
  rfl

/-- Stage 24: the weights against the values. -/
theorem v24_eq (b : Fin 1024) (h : Fin 8) (q e : Fin 64) :
    val_main_v24 (F := Ideal) x0 x1 (ix4 b h q e) = ctx (Xw x0 b) (Wm x1) h q e := by
  rw [val_main_v24_apply]
  unfold ctx
  refine Finset.sum_congr rfl fun k _ => ?_
  have e1 : lidx_main_v24 (ix4 b h q e) k = ix4 b h q k := funext fun a => by
    match a with | ⟨0, _⟩ => rfl | ⟨1, _⟩ => rfl | ⟨2, _⟩ => rfl | ⟨3, _⟩ => rfl
  have e2 : ridx_main_v24 (ix4 b h q e) k = ix4 b h k e := funext fun a => by
    match a with | ⟨0, _⟩ => rfl | ⟨1, _⟩ => rfl | ⟨2, _⟩ => rfl | ⟨3, _⟩ => rfl
  rw [e1, e2, v23_eq, v9_eq]

/-! ## The heads side by side, the output projection and the bias -/

/-- The window holding row `n` of batch element `B`. -/
def win (B : Fin 16) (n : Fin 4096) : Fin 1024 :=
  ⟨(B.val * 4096 + n.val) / 64, by have := B.isLt; have := n.isLt; omega⟩
/-- That row's position inside its window. -/
def pos (B : Fin 16) (n : Fin 4096) : Fin 64 := ⟨(B.val * 4096 + n.val) % 64, by omega⟩

/-- Stages 25 and 26: channel `c` of row `(B, n)` is head `c / 64`, lane `c % 64` of the row's window and position. -/
theorem v26_eq (B : Fin 16) (n : Fin 4096) (c : Fin 512) :
    val_main_v26 (F := Ideal) x0 x1 (ix3 B n c) = ctx (Xw x0 (win B n)) (Wm x1) (hd c) (pos B n) (lane c) := by
  rw [val_main_v26_apply, val_main_v25_apply]
  have e : idx_main_v25 (idx_main_v26 (ix3 B n c)) = ix4 (win B n) (hd c) (pos B n) (lane c) := funext fun a => Fin.ext (by
    have hB := B.isLt; have hn := n.isLt; have hc := c.isLt
    match a with
    | ⟨0, _⟩ => show ((B.val * 4096 + n.val) * 512 + c.val) / 32768 = (B.val * 4096 + n.val) / 64; omega
    | ⟨1, _⟩ => show ((B.val * 4096 + n.val) * 512 + c.val) / 64 % 8 = c.val / 64; omega
    | ⟨2, _⟩ => show ((B.val * 4096 + n.val) * 512 + c.val) / 512 % 64 = (B.val * 4096 + n.val) % 64; omega
    | ⟨3, _⟩ => show ((B.val * 4096 + n.val) * 512 + c.val) % 64 = c.val % 64; omega)
  rw [e, v24_eq]

/-- Stages 27 to 30: the output projection and the bias. -/
theorem v30_eq (B : Fin 16) (n : Fin 4096) (d : Fin 512) :
    val_main_v30 (F := Ideal) x0 x1 x2 x3 (ix3 B n d)
      = attnWin (Xw x0 (win B n)) (Wm x1) (fun d c => x2 (ix2 d c)) (fun d => x3 (ix1 d)) (pos B n) d := by
  rw [val_main_v30_apply, val_main_v29_apply, val_main_v28_apply, val_main_v27_apply]
  have e3 : idx_main_v28 (idx_main_v29 (ix3 B n d)) = ix1 d := funext fun a => by
    match a with | ⟨0, _⟩ => rfl
  rw [e3]
  simp only [Ideal.addf_def]
  unfold attnWin
  refine congrArg (· + x3 (ix1 d)) (Finset.sum_congr rfl fun c _ => ?_)
  have e1 : lidx_main_v27 (ix3 B n d) c = ix3 B n c := funext fun a => by
    match a with | ⟨0, _⟩ => rfl | ⟨1, _⟩ => rfl | ⟨2, _⟩ => rfl
  have e2 : ridx_main_v27 (ix3 B n d) c = ix2 d c := funext fun a => by
    match a with | ⟨0, _⟩ => rfl | ⟨1, _⟩ => rfl
  rw [e1, e2, v26_eq]

end Stages

/-- The reference's last stage, at `Ideal`, is `G` of the arguments. -/
theorem ref_eq (x0 : (⟨S16x4096x512, .f32⟩ : BufTy).Contents (Elt Ideal)) (x1 : (⟨S1536x512, .f32⟩ : BufTy).Contents (Elt Ideal))
    (x2 : (⟨S512x512, .f32⟩ : BufTy).Contents (Elt Ideal)) (x3 : (⟨S512, .f32⟩ : BufTy).Contents (Elt Ideal)) :
    val_main_v30 (F := Ideal) x0 x1 x2 x3 = Cert.Attn.G shapeCasts_S16x4096x512_S1024x64x512 x0 x1 x2 x3 := by
  funext i
  obtain ⟨B, n, d, rfl⟩ : ∃ B n d, i = ix3 B n d := ⟨i 0, i 1, i 2, eq_ix3 i⟩
  rw [v30_eq]
  rfl

end Cert.ReferenceIdeal.RefValue

end
-- ==== Proof.lean ====
/-
  Windowed multi-head attention fused with its input and output projections, against the plain einsum reference.

  Both programs regroup the 16 × 4096 × 512 input as 1024 windows of 64 positions and, window by window, project to
  queries, keys and values (8 heads of 64 lanes), take the scores `(q · k) / 8`, the softmax over each row — the row
  maximum from -∞, the exponentials, their sum, the quotient —, the weighted values, lay the heads side by side and apply
  the output projection and its bias. The kernel does it for 16 windows per grid point, with one fused 1536-column
  product, per-head slices of it, a scratch block the heads are written into, and 16-bit operands that are exact on the
  extended reals; the reference does it with whole-array einsums and transposes. On the extended reals the two are ONE
  function of the four arguments, `Cert.Attn.G` (Proof/Spec.lean): only sums are regrouped, which needs no finiteness.

  The three frames are the generated ones (the reference's is its run with the result dropped); the ideal pass rewrote
  nothing, so `preserves` is trivial; `algebraic` puts the kernel's run (Proof/KArray.lean) beside the reference's run
  read as `G` (Proof/RefValue.lean), on arguments that agree.
-/
import proofs.«145423_j50182397886562_1_alg».proof.Defs
import proofs.«145423_j50182397886562_1_alg».proof.Proof.Gen.Kernel
import proofs.«145423_j50182397886562_1_alg».proof.Proof.Gen.Kernel.Skeleton
import proofs.«145423_j50182397886562_1_alg».proof.Proof.Gen.Kernel.Launch
import proofs.«145423_j50182397886562_1_alg».proof.Proof.Gen.Kernel.Points
import proofs.«145423_j50182397886562_1_alg».proof.Proof.Gen.Kernel.Frame
import proofs.«145423_j50182397886562_1_alg».proof.Proof.Gen.KernelIdeal
import proofs.«145423_j50182397886562_1_alg».proof.Proof.Gen.KernelIdeal.Skeleton
import proofs.«145423_j50182397886562_1_alg».proof.Proof.Gen.KernelIdeal.Launch
import proofs.«145423_j50182397886562_1_alg».proof.Proof.Gen.KernelIdeal.Points
import proofs.«145423_j50182397886562_1_alg».proof.Proof.Gen.KernelIdeal.Frame
import proofs.«145423_j50182397886562_1_alg».proof.Proof.Gen.ReferenceIdeal
import proofs.«145423_j50182397886562_1_alg».proof.Proof.Gen.ReferenceIdeal.Run
import proofs.«145423_j50182397886562_1_alg».proof.Proof.Gen.ReferenceIdeal.Read
import proofs.«145423_j50182397886562_1_alg».proof.Proof.Gen.Pre_finite_inputs
import proofs.«145423_j50182397886562_1_alg».proof.Proof.KArray
import proofs.«145423_j50182397886562_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at `G` of their arguments, and the arguments agree. -/
theorem algebraic : Cert.algebraic_KernelIdeal_ReferenceIdeal := by
  intro m ρ m' ρ' _ hagree
  refine ⟨_, Cert.KernelIdeal.Body.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
